-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S1000000 : Shape := ⟨1, ![1000000]⟩
abbrev S4x64x64 : Shape := ⟨3, ![4, 64, 64]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1000000 : S_.BroadcastsInDim S2x1000000 (![] : Fin 0 → Fin S2x1000000.rank)
  reducesTo_S2x1000000_S_d0_1 : S2x1000000.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_v30 : IVec S_ 1) (main_v32 : IVec S1000000 1) : IVec S_ 1 :=
  let main_c_13 : IVec S_ 1 := constantI S_ 1 1#1
  let main_v33 : IVec S_ 1 := (fun x v => Host.reduce IntOp.andi x v reducesTo_S1000000_S_d0 h_S_) main_v32 main_c_13
  let main_v34 : IVec S_ 1 := andi main_v30 main_v33
  main_v34

def fn_part1 {F : FTy → Type} [FloatOps F] (main_arg1 : IVec S2x1000000 32) (main_arg2 : IVec S1000000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S2x1000000 32 := broadcastInDim S2x1000000 ![] bcast_S_S2x1000000 main_c_6
  let main_v20 : IVec S2x1000000 1 := cmpi .sge main_arg1 main_v19
  let main_c_7 : IVec S_ 1 := constantI S_ 1 1#1
  let main_v21 : IVec S_ 1 := (fun x v => Host.reduce IntOp.andi x v reducesTo_S2x1000000_S_d0_1 h_S_) main_v20 main_c_7
  let main_v22 : IVec S_ 1 := andi main_v18 main_v21
  let main_c_8 : IVec S_ 32 := constantI S_ 32 50000#32
  let main_v23 : IVec S2x1000000 32 := broadcastInDim S2x1000000 ![] bcast_S_S2x1000000 main_c_8
  let main_v24 : IVec S2x1000000 1 := cmpi .slt main_arg1 main_v23
  let main_c_9 : IVec S_ 1 := constantI S_ 1 1#1
  let main_v25 : IVec S_ 1 := (fun x v => Host.reduce IntOp.andi x v reducesTo_S2x1000000_S_d0_1 h_S_) main_v24 main_c_9
  let main_v26 : IVec S_ 1 := andi main_v22 main_v25
  let main_c_10 : IVec S_ 32 := constantI S_ 32 0#32
  let main_v27 : IVec S1000000 32 := broadcastInDim S1000000 ![] bcast_S_S1000000 main_c_10
  let main_v28 : IVec S1000000 1 := cmpi .sge main_arg2 main_v27
  let main_c_11 : IVec S_ 1 := constantI S_ 1 1#1
  let main_v29 : IVec S_ 1 := (fun x v => Host.reduce IntOp.andi x v reducesTo_S1000000_S_d0 h_S_) main_v28 main_c_11
  let main_v30 : IVec S_ 1 := andi main_v26 main_v29
  let main_c_12 : IVec S_ 32 := constantI S_ 32 4#32
  let main_v31 : IVec S1000000 32 := broadcastInDim S1000000 ![] bcast_S_S1000000 main_c_12
  let main_v32 : IVec S1000000 1 := cmpi .slt main_arg2 main_v31
  fn_part2 (F := F) main_v30 main_v32

def fn {F : FTy → Type} [FloatOps F] (main_arg0 : FVec F S50000x64 .f32) (main_arg1 : IVec S2x1000000 32) (main_arg2 : IVec S1000000 32) (main_arg3 : FVec F S4x64x64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_v13 main_v16
-- ==== Kernel.lean ====
abbrev S50000x64 : Shape := ⟨2, ![50000, 64]⟩
abbrev S2x1000000 : Shape := ⟨2, ![2, 1000000]⟩
abbrev S1000000 : Shape := ⟨1, ![1000000]⟩
abbrev S4x64x64 : Shape := ⟨3, ![4, 64, 64]⟩
abbrev S64x64 : Shape := ⟨2, ![64, 64]⟩
abbrev S64 : Shape := ⟨1, ![64]⟩
abbrev S1x1000000 : Shape := ⟨2, ![1, 1000000]⟩
abbrev S4x50000x64 : Shape := ⟨3, ![4, 50000, 64]⟩
abbrev S2000x64 : Shape := ⟨2, ![2000, 64]⟩
abbrev S4x2000x64 : Shape := ⟨3, ![4, 2000, 64]⟩
abbrev S1x64x64 : Shape := ⟨3, ![1, 64, 64]⟩
abbrev S1x2000x64 : Shape := ⟨3, ![1, 2000, 64]⟩
abbrev S200000x64 : Shape := ⟨2, ![200000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1x64 : Shape := ⟨2, ![1, 64]⟩
abbrev S5000x64 : Shape := ⟨2, ![5000, 64]⟩

abbrev nBuf : Space → Nat
  | .hbm => 50
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000, .i32⟩
  | .hbm, ⟨3, _⟩ => ⟨S4x64x64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S4x50000x64, .f32⟩
  | .hbm, ⟨11, _⟩ => ⟨S200000x64, .f32⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1, .i32⟩
  | .hbm, ⟨25, _⟩ => ⟨S_, .i32⟩
  | .hbm, ⟨26, _⟩ => ⟨S1000000x1, .i32⟩
  | .hbm, ⟨27, _⟩ => ⟨S1000000x1, .i1⟩
  | .hbm, ⟨28, _⟩ => ⟨S1x1, .i32⟩
  | .hbm, ⟨29, _⟩ => ⟨S1000000x1, .i32⟩
  | .hbm, ⟨30, _⟩ => ⟨S1000000x1, .i1⟩
  | .hbm, ⟨31, _⟩ => ⟨S1000000x1, .i1⟩
  | .hbm, ⟨32, _⟩ => ⟨S_, .i1⟩
  | .hbm, ⟨33, _⟩ => ⟨S1000000, .i1⟩
  | .hbm, ⟨34, _⟩ => ⟨S1000000x64, .f32⟩
  | .hbm, ⟨35, _⟩ => ⟨S1000000x64, .i1⟩
  | .hbm, ⟨36, _⟩ => ⟨S_, .f32⟩
  | .hbm, ⟨37, _⟩ => ⟨S1000000x64, .f32⟩
  | .hbm, ⟨38, _⟩ => ⟨S1000000x64, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S4x64x64, .f32⟩
  | .local _ .vmem, ⟨3, _⟩ => ⟨S4x2000x64, .f32⟩
  | .local _ .vmem, ⟨4, _⟩ => ⟨S4x2000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_0 : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x2000x64_S1x2000x64_0_0_0 : ∀ a, (![0, 0, 0] : Fin 3 → Nat) a + S1x2000x64.size a ≤ S4x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  inb_S4x64x64_S1x64x64_1_0_0 : ∀ a, (![1, 0, 0] : Fin 3 → Nat) a + S1x64x64.size a ≤ S4x64x64.size a
  inb_S4x2000x64_S1x2000x64_1_0_0 : ∀ a, (![1, 0, 0] : Fin 3 → Nat) a + S1x2000x64.size a ≤ S4x2000x64.size a
  inb_S4x64x64_S1x64x64_2_0_0 : ∀ a, (![2, 0, 0] : Fin 3 → Nat) a + S1x64x64.size a ≤ S4x64x64.size a
  inb_S4x2000x64_S1x2000x64_2_0_0 : ∀ a, (![2, 0, 0] : Fin 3 → Nat) a + S1x2000x64.size a ≤ S4x2000x64.size a
  inb_S4x64x64_S1x64x64_3_0_0 : ∀ a, (![3, 0, 0] : Fin 3 → Nat) a + S1x64x64.size a ≤ S4x64x64.size a
  inb_S4x2000x64_S1x2000x64_3_0_0 : ∀ a, (![3, 0, 0] : Fin 3 → Nat) a + S1x2000x64.size a ≤ S4x2000x64.size a
  shapeCasts_S4x50000x64_S200000x64 : S4x50000x64.ShapeCasts S200000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S2000x64_S64x64_S2000x64_1_0_0_1_n_n_wf : DotDims.WF S2000x64 S64x64 S2000x64 [1] [0] [0] [1] [] []
  gather_S200000x64_S1000000x1_S1000000x64_1_0_n_n_0_1_164_wf : GatherDims.WF S200000x64 S1000000x1 S1000000x64 [1] [0] [] [0] [] 1 ![1, 64]
  dot_S5000x64_S64x64_S5000x64_1_0_0_1_n_n_wf : DotDims.WF S5000x64 S64x64 S5000x64 [1] [0] [0] [1] [] []
  scatter_S50000x64_S1000000x1_S1000000x64_1_0_0_1_wf : ScatterDims.WF S50000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S4x64x64.size a
  hwx0_1 : ∀ i : grid0.Coords, EltTy.bits .f32 = 32 ∨ (Rect.block (s := S4x64x64) S4x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2000x64.size a ≤ S4x50000x64.size a
  hwx0_2 : ∀ i : grid0.Coords, EltTy.bits .f32 = 32 ∨ (Rect.block (s := S4x50000x64) S4x2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S1000000 : Shape := ⟨1, ![1000000]⟩
abbrev S4x64x64 : Shape := ⟨3, ![4, 64, 64]⟩
abbrev S64x64 : Shape := ⟨2, ![64, 64]⟩
abbrev S64 : Shape := ⟨1, ![64]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000, .i32⟩
  | .hbm, ⟨3, _⟩ => ⟨S4x64x64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S1000000x1, .i1⟩
  | .hbm, ⟨25, _⟩ => ⟨S1x64x64, .f32⟩
  | .hbm, ⟨26, _⟩ => ⟨S64x64, .f32⟩
  | .hbm, ⟨27, _⟩ => ⟨S1000000x64, .f32⟩
  | .hbm, ⟨28, _⟩ => ⟨S_, .f32⟩
  | .hbm, ⟨29, _⟩ => ⟨S_, .f32⟩
  | .hbm, ⟨30, _⟩ => ⟨S1000000x64, .i1⟩
  | .hbm, ⟨31, _⟩ => ⟨S1000000x64, .f32⟩
  | .hbm, ⟨32, _⟩ => ⟨S1000000x64, .f32⟩
  | .hbm, ⟨33, _⟩ => ⟨S1000000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S1000000x1, .i1⟩
  | .hbm, ⟨38, _⟩ => ⟨S1x64x64, .f32⟩
  | .hbm, ⟨39, _⟩ => ⟨S64x64, .f32⟩
  | .hbm, ⟨40, _⟩ => ⟨S1000000x64, .f32⟩
  | .hbm, ⟨41, _⟩ => ⟨S_, .f32⟩
  | .hbm, ⟨42, _⟩ => ⟨S_, .f32⟩
  | .hbm, ⟨43, _⟩ => ⟨S1000000x64, .i1⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S1000000x1, .i1⟩
  | .hbm, ⟨51, _⟩ => ⟨S1x64x64, .f32⟩
  | .hbm, ⟨52, _⟩ => ⟨S64x64, .f32⟩
  | .hbm, ⟨53, _⟩ => ⟨S1000000x64, .f32⟩
  | .hbm, ⟨54, _⟩ => ⟨S_, .f32⟩
  | .hbm, ⟨55, _⟩ => ⟨S_, .f32⟩
  | .hbm, ⟨56, _⟩ => ⟨S1000000x64, .i1⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .i32⟩
  | .hbm, ⟨61, _⟩ => ⟨S1000000, .i32⟩
  | .hbm, ⟨62, _⟩ => ⟨S1000000, .i1⟩
  | .hbm, ⟨63, _⟩ => ⟨S1000000x1, .i1⟩
  | .hbm, ⟨64, _⟩ => ⟨S1x64x64, .f32⟩
  | .hbm, ⟨65, _⟩ => ⟨S64x64, .f32⟩
  | .hbm, ⟨66, _⟩ => ⟨S1000000x64, .f32⟩
  | .hbm, ⟨67, _⟩ => ⟨S_, .f32⟩
  | .hbm, ⟨68, _⟩ => ⟨S_, .f32⟩
  | .hbm, ⟨69, _⟩ => ⟨S1000000x64, .i1⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S_, .f32⟩
  | .hbm, ⟨74, _⟩ => ⟨S50000x64, .f32⟩
  | .hbm, ⟨75, _⟩ => ⟨S1000000x1, .i32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  slices_S4x64x64_S1x64x64_0_0_0 : S4x64x64.Slices ![0, 0, 0] S1x64x64
  shapeCasts_S1x64x64_S64x64 : S1x64x64.ShapeCasts S64x64
  bcast_S1000000x1_S1000000x64_0_1 : S1000000x1.BroadcastsInDim S1000000x64 (![0, 1] : Fin 2 → Fin S1000000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The specification both programs are proved against, over the extended reals.

  A graph layer: every edge `e` carries a source node, a destination node and one of four edge types. The message of
  edge `e` is the source node's feature row times the weight matrix of the edge's type; a node's output row is its
  own feature row times the root matrix, plus the root bias, plus the sum of the messages of the edges that end at it.

  The edge tables are integer words. `srcOf`, `typOf` read a word as a row number, clamped into range, so that they
  are total; `InRange` says that every word already is in range, and under it the clamps do nothing.
-/
import Idealize.ShloMosaic.PureOps.Ideal
import Idealize.ShloMosaic.Lib.ValueIdx

noncomputable section

open scoped BigOperators

namespace Cert.Spec

open Idealize.ShloMosaic Idealize.ShloMosaic.ValueIdx

/-- The source node of edge `e`: row 0 of the edge table, read signed and clamped into `[0, 49999]`. -/
def srcOf (ei : IVec ⟨2, ![2, 1000000]⟩ 32) (e : Fin 1000000) : Fin 50000 :=
  ⟨min (ei (ix2 0 e)).toInt.toNat 49999, by omega⟩

/-- The type of edge `e`, read signed and clamped into `[0, 3]`. -/
def typOf (et : IVec ⟨1, ![1000000]⟩ 32) (e : Fin 1000000) : Fin 4 :=
  ⟨min (et (ix1 e)).toInt.toNat 3, by omega⟩

/-- Every source and destination node is one of the 50000 nodes and every edge type one of the four types. -/
structure InRange (ei : IVec ⟨2, ![2, 1000000]⟩ 32) (et : IVec ⟨1, ![1000000]⟩ 32) : Prop where
  src : ∀ e : Fin 1000000, 0 ≤ (ei (ix2 0 e)).toInt ∧ (ei (ix2 0 e)).toInt < 50000
  dst : ∀ e : Fin 1000000, 0 ≤ (ei (ix2 1 e)).toInt ∧ (ei (ix2 1 e)).toInt < 50000
  typ : ∀ e : Fin 1000000, 0 ≤ (et (ix1 e)).toInt ∧ (et (ix1 e)).toInt < 4

theorem InRange.src_val {ei : IVec ⟨2, ![2, 1000000]⟩ 32} {et : IVec ⟨1, ![1000000]⟩ 32} (h : InRange ei et)
    (e : Fin 1000000) : (ei (ix2 0 e)).toInt = ((srcOf ei e).val : ℤ) := by
  have := h.src e
  show _ = ((min (ei (ix2 0 e)).toInt.toNat 49999 : ℕ) : ℤ)
  omega

theorem InRange.typ_val {ei : IVec ⟨2, ![2, 1000000]⟩ 32} {et : IVec ⟨1, ![1000000]⟩ 32} (h : InRange ei et)
    (e : Fin 1000000) : (et (ix1 e)).toInt = ((typOf et e).val : ℤ) := by
  have := h.typ e
  show _ = ((min (et (ix1 e)).toInt.toNat 3 : ℕ) : ℤ)
  omega

/-- The message of edge `e`, column `c`: the source node's row times the weight matrix of the edge's type. -/
def msg (x : (⟨2, ![50000, 64]⟩ : Shape).Idx → EReal) (ei : IVec ⟨2, ![2, 1000000]⟩ 32)
    (et : IVec ⟨1, ![1000000]⟩ 32) (w : (⟨3, ![4, 64, 64]⟩ : Shape).Idx → EReal) (e : Fin 1000000) (c : Fin 64) : EReal :=
  ∑ k : Fin 64, x (ix2 (srcOf ei e) k) * w (ix3 (typOf et e) k c)

/-- The root term of node `n`, column `c`: the node's own row times the root matrix, plus the bias. -/
def root (x : (⟨2, ![50000, 64]⟩ : Shape).Idx → EReal) (rw : (⟨2, ![64, 64]⟩ : Shape).Idx → EReal)
    (rb : (⟨1, ![64]⟩ : Shape).Idx → EReal) (n : Fin 50000) (c : Fin 64) : EReal :=
  (∑ k : Fin 64, x (ix2 n k) * rw (ix2 k c)) + rb (ix1 c)

/-- THE RESULT at node `n`, column `c`: the root term plus the messages of the edges whose destination is `n`. -/
def out (x : (⟨2, ![50000, 64]⟩ : Shape).Idx → EReal) (ei : IVec ⟨2, ![2, 1000000]⟩ 32)
    (et : IVec ⟨1, ![1000000]⟩ 32) (w : (⟨3, ![4, 64, 64]⟩ : Shape).Idx → EReal)
    (rw : (⟨2, ![64, 64]⟩ : Shape).Idx → EReal) (rb : (⟨1, ![64]⟩ : Shape).Idx → EReal)
    (n : Fin 50000) (c : Fin 64) : EReal :=
  root x rw rb n c
    + ∑ e ∈ Finset.univ.filter (fun e : Fin 1000000 => (ei (ix2 1 e)).toInt = (n.val : ℤ)), msg x ei et w e c

/-- The result as an array. -/
def outArr (x : (⟨2, ![50000, 64]⟩ : Shape).Idx → EReal) (ei : IVec ⟨2, ![2, 1000000]⟩ 32)
    (et : IVec ⟨1, ![1000000]⟩ 32) (w : (⟨3, ![4, 64, 64]⟩ : Shape).Idx → EReal)
    (rw : (⟨2, ![64, 64]⟩ : Shape).Idx → EReal) (rb : (⟨1, ![64]⟩ : Shape).Idx → EReal) :
    (⟨2, ![50000, 64]⟩ : Shape).Idx → EReal :=
  fun i => out x ei et w rw rb (i 0) (i 1)

theorem outArr_apply (x : (⟨2, ![50000, 64]⟩ : Shape).Idx → EReal) (ei : IVec ⟨2, ![2, 1000000]⟩ 32)
    (et : IVec ⟨1, ![1000000]⟩ 32) (w : (⟨3, ![4, 64, 64]⟩ : Shape).Idx → EReal)
    (rw : (⟨2, ![64, 64]⟩ : Shape).Idx → EReal) (rb : (⟨1, ![64]⟩ : Shape).Idx → EReal) (n : Fin 50000) (c : Fin 64) :
    outArr x ei et w rw rb (ix2 n c) = out x ei et w rw rb n c := rfl

end Cert.Spec

end
-- ==== Proof.PreFacts.lean ====
/-
  From the stated precondition to the range facts: the precondition is a conjunction of eight tests, four on the
  float inputs and four on the integer tables. The last four say that every word of the edge table is a node number
  and every word of the type table one of the four types.
-/
import proofs.«404253_j14336600834347_2_alg».proof.Pre_finite_inputs
import proofs.«404253_j14336600834347_2_alg».proof.Proof.Spec
import Idealize.ShloMosaic.Lib.ReduceAll
import Idealize.ShloMosaic.Lib.StableHlo.Predicate

noncomputable section

namespace Cert.PreFacts

open Idealize.ShloMosaic Idealize.ShloMosaic.ValueIdx

/-- The rank-0 shape has one index. -/
local instance subsingleton_scalar_idx : Subsingleton Cert.Pre_finite_inputs.S_.Idx :=
  ⟨fun _ _ => funext fun d => d.elim0⟩

/-- A word that passes the signed test "at least zero" has a non-negative signed value. -/
theorem toInt_nonneg_of_sge (w : BitVec 32) (h : IntOp.cmpi .sge w 0#32 = 1#1) : 0 ≤ w.toInt := by
  unfold IntOp.cmpi at h
  rw [StableHlo.Predicate.ofBool_eq_one_iff] at h
  simp only [BitVec.sle, decide_eq_true_eq] at h
  have h0 : (0#32 : BitVec 32).toInt = 0 := by decide
  rw [h0] at h
  exact h

/-- A word that passes the signed test "below c" has a signed value below that of c. -/
theorem toInt_lt_of_slt (w c : BitVec 32) (h : IntOp.cmpi .slt w c = 1#1) : w.toInt < c.toInt := by
  unfold IntOp.cmpi at h
  rw [StableHlo.Predicate.ofBool_eq_one_iff] at h
  simp only [BitVec.slt, decide_eq_true_eq] at h
  exact h

/-- Where the precondition holds, every source and destination is a node and every edge type one of the four. -/
theorem inRange [Cert.Pre_finite_inputs.Facts] {F : FTy → Type} [FloatOps F]
    (a0 : FVec F Cert.Pre_finite_inputs.S50000x64 .f32) (a1 : IVec Cert.Pre_finite_inputs.S2x1000000 32)
    (a2 : IVec Cert.Pre_finite_inputs.S1000000 32) (a3 : FVec F Cert.Pre_finite_inputs.S4x64x64 .f32)
    (a4 : FVec F Cert.Pre_finite_inputs.S64x64 .f32) (a5 : FVec F Cert.Pre_finite_inputs.S64 .f32)
    (h : Cert.Pre_finite_inputs.fn (F := F) a0 a1 a2 a3 a4 a5 = (fun _ => 1#1)) :
    Cert.Spec.InRange a1 a2 := by
  have e := congrFun h ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨-, hge1⟩, hlt1⟩, hge2⟩, hlt2⟩ := e
  have g1 := Host.reduce_andi_all _ _ _ _ _ hge1
  have l1 := Host.reduce_andi_all _ _ _ _ _ hlt1
  have g2 := Host.reduce_andi_all _ _ _ _ _ hge2
  have l2 := Host.reduce_andi_all _ _ _ _ _ hlt2
  simp only [cmpi, broadcastInDim, constantI] at g1 l1 g2 l2
  have c50000 : (50000#32 : BitVec 32).toInt = 50000 := by decide
  have c4 : (4#32 : BitVec 32).toInt = 4 := by decide
  refine ⟨fun e => ⟨toInt_nonneg_of_sge _ (g1 (ix2 0 e)), ?_⟩, fun e => ⟨toInt_nonneg_of_sge _ (g1 (ix2 1 e)), ?_⟩,
    fun e => ⟨toInt_nonneg_of_sge _ (g2 (ix1 e)), ?_⟩⟩
  · have := toInt_lt_of_slt _ _ (l1 (ix2 0 e)); rw [c50000] at this; exact this
  · have := toInt_lt_of_slt _ _ (l1 (ix2 1 e)); rw [c50000] at this; exact this
  · have := toInt_lt_of_slt _ _ (l2 (ix1 e)); rw [c4] at this; exact this

end Cert.PreFacts

end
-- ==== Proof.KernelHost.lean ====
/-
  The kernel program's host operations, stretch by stretch, as functions of the buffer contents a stretch starts from.

  Before the first launch the edge table is cut into its two rows. Between the launches the four per-type products are
  laid out as one table of 200000 rows, each edge's row number in it is computed as type times 50000 plus source, the
  rows are taken (a row number outside the table would read as a filler, a negative one counts from the end), and the bias
  is laid out as a row. After the second launch the taken rows are added into the launch's result at the destination rows.
-/
import proofs.«404253_j14336600834347_2_alg».proof.Proof.Gen.KernelIdeal.Frame
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

/-- A row of the edge table as a vector of words. -/
def tableRow (r : Nat) (h : S2x1000000.Slices ![r, 0] S1x1000000) (ei : (⟨S2x1000000, .i32⟩ : BufTy).Contents (Elt F)) :
    (⟨S1000000, .i32⟩ : BufTy).Contents (Elt F) :=
  shapeCast S1000000 (extractStridedSlice S1x1000000 ![r, 0] ei h) shapeCasts_S1x1000000_S1000000

/-- A vector of row numbers with the negative ones counted from the end of a table of `n` rows, as a column. -/
def wrapCol (n : BitVec 32) (idx : (⟨S1000000, .i32⟩ : BufTy).Contents (Elt F)) : (⟨S1000000x1, .i32⟩ : BufTy).Contents (Elt F) :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 n))) idx)

/-- The row numbers of the taken rows: type times 50000 plus source. -/
def rowNumbers (et src : (⟨S1000000, .i32⟩ : BufTy).Contents (Elt F)) : (⟨S1000000, .i32⟩ : BufTy).Contents (Elt F) :=
  addi (muli et (broadcastInDim S1000000 ![] bcast_S_S1000000 (constantI S_ 32 50000#32))) src

/-- The rows of a 200000-row table taken at a vector of row numbers; a row number outside the table reads as a filler. -/
def takeRows (y : (⟨S200000x64, .f32⟩ : BufTy).Contents (Elt F)) (idx : (⟨S1000000, .i32⟩ : BufTy).Contents (Elt F)) :
    (⟨S1000000x64, .f32⟩ : BufTy).Contents (Elt F) :=
  select
    (broadcastInDim S1000000x64 ![0] bcast_S1000000_S1000000x64_0
      (Host.reduce IntOp.andi
        (andi
          (cmpi .sge (wrapCol 200000#32 idx) (broadcastInDim S1000000x1 ![] bcast_S_S1000000x1 (constantI S_ 32 0#32)))
          (cmpi .sle (wrapCol 200000#32 idx)
            (broadcastInDim S1000000x1 ![0, 1] bcast_S1x1_S1000000x1_0_1
              (broadcastInDim S1x1 ![1] bcast_S1_S1x1_1 (constantI S1 32 199999#32)))))
        (constantI S_ 1 1#1) reducesTo_S1000000x1_S1000000_d1 h_S_))
    (Host.gather gather_S200000x64_S1000000x1_S1000000x64_1_0_n_n_0_1_164 y (wrapCol 200000#32 idx))
    (broadcastInDim S1000000x64 ![] bcast_S_S1000000x64 (constant S_ .f32 0x7FC00000#32))

variable (Wx : Valuation τ sig (Elt F))

/-! ## Before the first launch -/

theorem pre_src : StableHlo.after hostOps0 Wx (Proc.devRef .tc main_v1)
    = tableRow 0 slices_S2x1000000_S1x1000000_0_0 (Wx (Proc.devRef .tc main_arg1)) := by
  after_results; rfl

theorem pre_dst : StableHlo.after hostOps0 Wx (Proc.devRef .tc main_v3)
    = tableRow 1 slices_S2x1000000_S1x1000000_1_0 (Wx (Proc.devRef .tc main_arg1)) := by
  after_results; rfl

theorem pre_arg0 : StableHlo.after hostOps0 Wx (Proc.devRef .tc main_arg0) = Wx (Proc.devRef .tc main_arg0) := by
  after_results <;> rfl
theorem pre_arg2 : StableHlo.after hostOps0 Wx (Proc.devRef .tc main_arg2) = Wx (Proc.devRef .tc main_arg2) := by
  after_results <;> rfl
theorem pre_arg3 : StableHlo.after hostOps0 Wx (Proc.devRef .tc main_arg3) = Wx (Proc.devRef .tc main_arg3) := by
  after_results <;> rfl
theorem pre_arg4 : StableHlo.after hostOps0 Wx (Proc.devRef .tc main_arg4) = Wx (Proc.devRef .tc main_arg4) := by
  after_results <;> rfl
theorem pre_arg5 : StableHlo.after hostOps0 Wx (Proc.devRef .tc main_arg5) = Wx (Proc.devRef .tc main_arg5) := by
  after_results <;> rfl

/-! ## Between the launches: the table and the row numbers -/

theorem mid_table : StableHlo.after hostOps1 Wx (Proc.devRef .tc main_v5)
    = shapeCast S200000x64 (Wx (Proc.devRef .tc main_v4)) shapeCasts_S4x50000x64_S200000x64 := by
  after_results; rfl

theorem mid_rows : StableHlo.after hostOps1 Wx (Proc.devRef .tc main_v8)
    = rowNumbers (Wx (Proc.devRef .tc main_arg2)) (Wx (Proc.devRef .tc main_v1)) := by
  after_results; rfl

theorem mid_arg0 : StableHlo.after hostOps1 Wx (Proc.devRef .tc main_arg0) = Wx (Proc.devRef .tc main_arg0) := by
  after_results <;> rfl
theorem mid_arg4 : StableHlo.after hostOps1 Wx (Proc.devRef .tc main_arg4) = Wx (Proc.devRef .tc main_arg4) := by
  after_results <;> rfl
theorem mid_arg5 : StableHlo.after hostOps1 Wx (Proc.devRef .tc main_arg5) = Wx (Proc.devRef .tc main_arg5) := by
  after_results <;> rfl
theorem mid_dst : StableHlo.after hostOps1 Wx (Proc.devRef .tc main_v3) = Wx (Proc.devRef .tc main_v3) := by
  after_results <;> rfl

/-! ## Between the launches: the bias as a row -/

theorem bias_row : StableHlo.after hostOps1_2 Wx (Proc.devRef .tc main_v10)
    = shapeCast S1x64 (Wx (Proc.devRef .tc main_arg5)) shapeCasts_S64_S1x64 := by
  after_results; rfl
theorem bias_arg0 : StableHlo.after hostOps1_2 Wx (Proc.devRef .tc main_arg0) = Wx (Proc.devRef .tc main_arg0) := by
  after_results <;> rfl
theorem bias_arg4 : StableHlo.after hostOps1_2 Wx (Proc.devRef .tc main_arg4) = Wx (Proc.devRef .tc main_arg4) := by
  after_results <;> rfl
theorem bias_dst : StableHlo.after hostOps1_2 Wx (Proc.devRef .tc main_v3) = Wx (Proc.devRef .tc main_v3) := by
  after_results <;> rfl
theorem bias_taken : StableHlo.after hostOps1_2 Wx (Proc.devRef .tc main_v9) = Wx (Proc.devRef .tc main_v9) := by
  after_results <;> rfl

/-! ## After the second launch -/

theorem post_result : StableHlo.after hostOps2 Wx (Proc.devRef .tc main_v18)
    = Host.scatterAdd scatter_S50000x64_S1000000x1_S1000000x64_1_0_0_1 (Wx (Proc.devRef .tc main_v11))
        (wrapCol 50000#32 (Wx (Proc.devRef .tc main_v3))) (Wx (Proc.devRef .tc main_v9)) := by
  after_results; rfl

end Cert.KernelIdeal.HostRead

end
-- ==== Proof.KernelTake.lean ====
/-
  The rows taken between the two launches, as a function of the table and the row numbers: the call's twenty-three
  operations read in three runs — the row numbers with the negative ones counted from the end, as a column; the test
  that a row number lies in the table; and the rows read at the column, with the filler where the test fails.
-/
import proofs.«404253_j14336600834347_2_alg».proof.Proof.KernelHost

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

/-- The test that every row number of a column lies in a table of 200000 rows. -/
def inTable (col : (⟨S1000000x1, .i32⟩ : BufTy).Contents (Elt F)) : (⟨S1000000, .i1⟩ : BufTy).Contents (Elt F) :=
  Host.reduce IntOp.andi
    (andi
      (cmpi .sge col (broadcastInDim S1000000x1 ![] bcast_S_S1000000x1 (constantI S_ 32 0#32)))
      (cmpi .sle col
        (broadcastInDim S1000000x1 ![0, 1] bcast_S1x1_S1000000x1_0_1
          (broadcastInDim S1x1 ![1] bcast_S1_S1x1_1 (constantI S1 32 199999#32)))))
    (constantI S_ 1 1#1) reducesTo_S1000000x1_S1000000_d1 h_S_

theorem takeRows_eq (y : (⟨S200000x64, .f32⟩ : BufTy).Contents (Elt F)) (idx : (⟨S1000000, .i32⟩ : BufTy).Contents (Elt F)) :
    takeRows y idx = select (broadcastInDim S1000000x64 ![0] bcast_S1000000_S1000000x64_0 (inTable (wrapCol 200000#32 idx)))
      (Host.gather gather_S200000x64_S1000000x1_S1000000x64_1_0_n_n_0_1_164 y (wrapCol 200000#32 idx))
      (broadcastInDim S1000000x64 ![] bcast_S_S1000000x64 (constant S_ .f32 0x7FC00000#32)) := rfl

variable (Wx : Valuation τ sig (Elt F))

/-! ## The first eight operations: the column of row numbers -/

set_option maxRecDepth 131072 in
theorem takeA_col : StableHlo.after (hostOps1_1.take 8) Wx (Proc.devRef .tc main_call0_v5)
    = wrapCol 200000#32 (Wx (Proc.devRef .tc main_v8)) := by
  simp only [hostOps1_1, List.take_succ_cons, List.take_zero]
  after_results_simp
  unfold wrapCol
  simp only [StableHlo.TRef.toBuf, StableHlo.TRef.ofBuf, cast_eq]

theorem takeA_table : StableHlo.after (hostOps1_1.take 8) Wx (Proc.devRef .tc main_v5) = Wx (Proc.devRef .tc main_v5) := by
  simp only [hostOps1_1, List.take_succ_cons, List.take_zero]
  after_results_simp

/-! ## The next ten: the range test -/

set_option maxRecDepth 131072 in
theorem takeB_test : StableHlo.after ((hostOps1_1.drop 8).take 10) Wx (Proc.devRef .tc main_call0_v12)
    = inTable (Wx (Proc.devRef .tc main_call0_v5)) := by
  simp only [hostOps1_1, List.drop_succ_cons, List.drop_zero, List.take_succ_cons, List.take_zero]
  after_results_simp
  unfold inTable
  simp only [StableHlo.TRef.toBuf, StableHlo.TRef.ofBuf, cast_eq]

theorem takeB_col : StableHlo.after ((hostOps1_1.drop 8).take 10) Wx (Proc.devRef .tc main_call0_v5)
    = Wx (Proc.devRef .tc main_call0_v5) := by
  simp only [hostOps1_1, List.drop_succ_cons, List.drop_zero, List.take_succ_cons, List.take_zero]
  after_results_simp

theorem takeB_table : StableHlo.after ((hostOps1_1.drop 8).take 10) Wx (Proc.devRef .tc main_v5)
    = Wx (Proc.devRef .tc main_v5) := by
  simp only [hostOps1_1, List.drop_succ_cons, List.drop_zero, List.take_succ_cons, List.take_zero]
  after_results_simp

/-! ## The last five: the rows read, the filler where the test fails -/

theorem takeC_rows : StableHlo.after (hostOps1_1.drop 18) Wx (Proc.devRef .tc main_v9)
    = select (broadcastInDim S1000000x64 ![0] bcast_S1000000_S1000000x64_0 (Wx (Proc.devRef .tc main_call0_v12)))
      (Host.gather gather_S200000x64_S1000000x1_S1000000x64_1_0_n_n_0_1_164 (Wx (Proc.devRef .tc main_v5))
        (Wx (Proc.devRef .tc main_call0_v5)))
      (broadcastInDim S1000000x64 ![] bcast_S_S1000000x64 (constant S_ .f32 0x7FC00000#32)) := by
  simp only [hostOps1_1, List.drop_succ_cons, List.drop_zero]
  after_results_simp
  rfl

/-! ## The twenty-three together -/

/-- The call's result: the rows of the table taken at the row numbers. -/
theorem take_rows : StableHlo.after hostOps1_1 Wx (Proc.devRef .tc main_v9)
    = takeRows (Wx (Proc.devRef .tc main_v5)) (Wx (Proc.devRef .tc main_v8)) := by
  show StableHlo.after (hostOps1_1.drop 18)
    (StableHlo.after ((hostOps1_1.drop 8).take 10) (StableHlo.after (hostOps1_1.take 8) Wx)) (Proc.devRef .tc main_v9) = _
  rw [takeC_rows, takeB_test, takeB_col, takeB_table, takeA_col, takeA_table, takeRows_eq]

set_option maxHeartbeats 1000000 in
theorem take_arg0 : StableHlo.after hostOps1_1 Wx (Proc.devRef .tc main_arg0) = Wx (Proc.devRef .tc main_arg0) := by
  after_results_simp
set_option maxHeartbeats 1000000 in
theorem take_arg4 : StableHlo.after hostOps1_1 Wx (Proc.devRef .tc main_arg4) = Wx (Proc.devRef .tc main_arg4) := by
  after_results_simp
set_option maxHeartbeats 1000000 in
theorem take_arg5 : StableHlo.after hostOps1_1 Wx (Proc.devRef .tc main_arg5) = Wx (Proc.devRef .tc main_arg5) := by
  after_results_simp
set_option maxHeartbeats 1000000 in
theorem take_dst : StableHlo.after hostOps1_1 Wx (Proc.devRef .tc main_v3) = Wx (Proc.devRef .tc main_v3) := by
  after_results_simp

end Cert.KernelIdeal.HostRead

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.RegionY.lean ====
/-
  What the first kernel launch leaves in its result array, as a whole-array function of the arrays it finds.

  The launch walks the nodes in 25 blocks of 2000 rows; at each block it multiplies the block of node features by each
  of the four weight matrices and stores the four products, so the result array holds, at `(t, n, c)`, row `n` of the
  features times column `c` of weight matrix `t`.
-/
import proofs.«404253_j14336600834347_2_alg».proof.Proof.Gen.KernelIdeal.Frame
import proofs.«404253_j14336600834347_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

/-- Dropping the leading unit coordinate of an index of a one-slice block. -/
theorem yTail_ix3 (p : Fin 2000) (q : Fin 64) :
    (fun a : Fin 2 => (ix3 (0 : Fin 1) p q) a.succ) = ix2 p q :=
  funext fun a => by match a with | ⟨0, _⟩ => rfl | ⟨1, _⟩ => rfl

/-- Putting a leading unit coordinate before an index of a weight matrix. -/
theorem yCons_ix2 (k q : Fin 64) :
    (Fin.cons (⟨0, Nat.one_pos⟩ : Fin 1) (ix2 k q) : S1x64x64.Idx) = ix3 (0 : Fin 1) k q :=
  funext fun a => by match a with | ⟨0, _⟩ => rfl | ⟨1, _⟩ => rfl | ⟨2, _⟩ => rfl

/-- One weight matrix, read as a plain matrix after its format change. -/
theorem yWeight_apply (w : Vec Ideal S1x64x64 .f32) (k q : Fin 64) :
    (truncf FTy.bf16 (shapeCast S64x64 w shapeCasts_S1x64x64_S64x64) bitsLt_bf16_f32 : FVec Ideal S64x64 .bf16) (ix2 k q)
      = w (ix3 (0 : Fin 1) k q) := by
  show shapeCast S64x64 w shapeCasts_S1x64x64_S64x64 (ix2 k q) = _
  refine (shapeCast_dropUnit_apply ![64, 64] w _ (ix2 k q)).trans ?_
  exact congrArg w (yCons_ix2 k q)

/-- One slice of what a grid point stores, at one entry: the features block times the slice's weight matrix,
    `∑ k, x0[p, k] · w[0, k, q]` (the changes of float format are the identity on the extended reals, the product
    is taken into a zero accumulator, and the result gets a leading unit coordinate). -/
theorem yBlockProd_apply (x0 : Vec Ideal S2000x64 .f32) (w : Vec Ideal S1x64x64 .f32) (p : Fin 2000) (q : Fin 64) :
    k0_pay3 (F := Ideal) x0 w (ix3 (0 : Fin 1) p q) = ∑ k : Fin 64, x0 (ix2 p k) * w (ix3 (0 : Fin 1) k q) := by
  unfold k0_pay3
  refine (shapeCast_addUnit_apply ![2000, 64] _ _ (ix3 (0 : Fin 1) p q)).trans ?_
  refine (congrArg _ (yTail_ix3 p q)).trans ?_
  refine (Cert.Lib.matmul_plain_apply dot_S2000x64_S64x64_S2000x64_1_0_0_1_n_n rfl rfl rfl rfl rfl rfl none _ _ p q).trans ?_
  refine Finset.sum_congr rfl fun k _ => ?_
  have e1 : k0_pay2 (F := Ideal) x0 (ix2 p k) = x0 (ix2 p k) := rfl
  rw [e1, yWeight_apply]

/-- The other three slices are the same function of the features block and their own weight matrix. -/
theorem yPay4_eq (x0 : Vec Ideal S2000x64 .f32) (w : Vec Ideal S1x64x64 .f32) : k0_pay4 (F := Ideal) x0 w = k0_pay3 x0 w := rfl
theorem yPay5_eq (x0 : Vec Ideal S2000x64 .f32) (w : Vec Ideal S1x64x64 .f32) : k0_pay5 (F := Ideal) x0 w = k0_pay3 x0 w := rfl
theorem yPay16_eq (x0 : Vec Ideal S2000x64 .f32) (w : Vec Ideal S1x64x64 .f32) : k0_pay1 (F := Ideal) (k0_pay6 x0 w) = k0_pay3 x0 w := rfl

/-- What one grid point computes: the four products of its block of features with the four weight matrices. -/
def blkY (x0 : Vec Ideal S2000x64 .f32) (x1 : Vec Ideal S4x64x64 .f32) : Vec Ideal S4x2000x64 .f32 :=
  fun y => ∑ k : Fin 64, x0 (ix2 (y 1) k) * x1 (ix3 (y 0) k (y 2))

/-- One store of the body, read at an entry of its slice: the features block is loaded whole, the weight matrix
    is slice `s` of the weights, and the product lands in slice `s` of the output block, so the stored value is the
    block's product at the entry's place in the output block. -/
theorem ySlice_piece (x0 : Vec Ideal S2000x64 .f32) (x1 : Vec Ideal S4x64x64 .f32) (s : Fin 4)
    (offw : Fin 3 → Nat) (inbw : ∀ a, offw a + S1x64x64.size a ≤ S4x64x64.size a)
    (offo : Fin 3 → Nat) (inbo : ∀ a, offo a + S1x2000x64.size a ≤ S4x2000x64.size a)
    (hw0 : offw 0 = s.val) (hw1 : offw 1 = 0) (hw2 : offw 2 = 0)
    (ho0 : offo 0 = s.val) (ho1 : offo 1 = 0) (ho2 : offo 2 = 0)
    (x : S1x2000x64.Idx) :
    k0_pay3 (F := Ideal) (View.ld x0 r0_0) (View.ld x1 (Rect.unit (s := S4x64x64) offw S1x64x64.size inbw)) x
      = blkY x0 x1 ((Rect.unit (s := S4x2000x64) offo S1x2000x64.size inbo).emb x) := by
  obtain ⟨a, p, q, rfl⟩ : ∃ (a : Fin 1) (p : Fin 2000) (q : Fin 64), x = ix3 a p q := ⟨x 0, x 1, x 2, eq_ix3 x⟩
  obtain rfl : a = 0 := Subsingleton.elim _ _
  refine (yBlockProd_apply _ _ p q).trans ?_
  refine Finset.sum_congr rfl fun k _ => ?_
  have e0 : View.ld x0 r0_0 (ix2 p k) = x0 (ix2 ((Rect.unit (s := S4x2000x64) offo S1x2000x64.size inbo).emb (ix3 0 p q) 1) k) := by
    show x0 _ = x0 _
    refine congrArg x0 (funext fun a => Fin.ext ?_)
    match a with
    | ⟨0, _⟩ => show 0 + 1 * p.val = offo 1 + 1 * p.val; omega
    | ⟨1, _⟩ => show 0 + 1 * k.val = k.val; omega
  have e1 : View.ld x1 (Rect.unit (s := S4x64x64) offw S1x64x64.size inbw) (ix3 0 k q)
      = x1 (ix3 ((Rect.unit (s := S4x2000x64) offo S1x2000x64.size inbo).emb (ix3 0 p q) 0) k
          ((Rect.unit (s := S4x2000x64) offo S1x2000x64.size inbo).emb (ix3 0 p q) 2)) := by
    show x1 _ = x1 _
    refine congrArg x1 (funext fun a => Fin.ext ?_)
    match a with
    | ⟨0, _⟩ => show offw 0 + 1 * 0 = offo 0 + 1 * 0; omega
    | ⟨1, _⟩ => show offw 1 + 1 * k.val = k.val; omega
    | ⟨2, _⟩ => show offw 2 + 1 * q.val = offo 2 + 1 * q.val; omega
  rw [e0, e1]

/-- The body leaves, in the output block, the four products: each of its four stores holds one of them. -/
theorem out0_eq_blkY (x0 : Vec Ideal S2000x64 .f32) (x1 : Vec Ideal S4x64x64 .f32) :
    out0_2 (F := Ideal) x0 x1 = blkY x0 x1 := by
  funext y
  unfold out0_2
  refine View.canon_apply_of_pieces (blkY x0 x1) _ ?_ y (cover0_2 _ _ _ _ y)
  intro pc hpc
  rcases List.mem_cons.1 hpc with rfl | hpc
  · intro x
    refine (congrFun (yPay16_eq _ _) x).trans ?_
    exact ySlice_piece x0 x1 3 ![3, 0, 0] inb_S4x64x64_S1x64x64_3_0_0 ![3, 0, 0] inb_S4x2000x64_S1x2000x64_3_0_0 rfl rfl rfl rfl rfl rfl x
  rcases List.mem_cons.1 hpc with rfl | hpc
  · intro x
    refine (congrFun (yPay5_eq _ _) x).trans ?_
    exact ySlice_piece x0 x1 2 ![2, 0, 0] inb_S4x64x64_S1x64x64_2_0_0 ![2, 0, 0] inb_S4x2000x64_S1x2000x64_2_0_0 rfl rfl rfl rfl rfl rfl x
  rcases List.mem_cons.1 hpc with rfl | hpc
  · intro x
    refine (congrFun (yPay4_eq _ _) x).trans ?_
    exact ySlice_piece x0 x1 1 ![1, 0, 0] inb_S4x64x64_S1x64x64_1_0_0 ![1, 0, 0] inb_S4x2000x64_S1x2000x64_1_0_0 rfl rfl rfl rfl rfl rfl x
  rcases List.mem_cons.1 hpc with rfl | hpc
  · intro x
    exact ySlice_piece x0 x1 0 ![0, 0, 0] inb_S4x64x64_S1x64x64_0_0_0 ![0, 0, 0] inb_S4x2000x64_S1x2000x64_0_0_0 rfl rfl rfl rfl rfl rfl x
  · exact absurd hpc List.not_mem_nil

/-- The four per-type products of the node features: entry `(t, n, c)` is row `n` of `x` times column `c` of `w[t]`. -/
def yArr (x : FVec Ideal S50000x64 .f32) (w : FVec Ideal S4x64x64 .f32) : FVec Ideal S4x50000x64 .f32 :=
  fun i => ∑ k : Fin 64, x (ix2 (i 1) k) * w (ix3 (i 0) k (i 2))

/-- A block's products are the whole array's at the block's place: the block of features holds rows
    `2000 n … 2000 n + 1999` and the weights are whole. -/
theorem blkY_read (X : FVec Ideal S50000x64 .f32) (Wt : FVec Ideal S4x64x64 .f32)
    (x0 : Vec Ideal S2000x64 .f32) (x1 : Vec Ideal S4x64x64 .f32) (n : Nat)
    (h0 : ∀ (p : Fin 2000) (k : Fin 64) (r : Fin 50000), r.val = n * 2000 + p.val → x0 (ix2 p k) = X (ix2 r k))
    (h1 : ∀ (s : Fin 4) (k q : Fin 64), x1 (ix3 s k q) = Wt (ix3 s k q))
    (j : S4x2000x64.Idx) (i : S4x50000x64.Idx)
    (hi0 : (i 0).val = (j 0).val) (hi1 : (i 1).val = n * 2000 + (j 1).val) (hi2 : (i 2).val = (j 2).val) :
    blkY x0 x1 j = yArr X Wt i := by
  obtain ⟨s, p, q, rfl⟩ : ∃ (s : Fin 4) (p : Fin 2000) (q : Fin 64), j = ix3 s p q := ⟨j 0, j 1, j 2, eq_ix3 j⟩
  obtain ⟨s', r, q', rfl⟩ : ∃ (s' : Fin 4) (r : Fin 50000) (q' : Fin 64), i = ix3 s' r q' := ⟨i 0, i 1, i 2, eq_ix3 i⟩
  obtain rfl : s' = s := Fin.ext hi0
  obtain rfl : q' = q := Fin.ext hi2
  show (∑ k : Fin 64, x0 (ix2 p k) * x1 (ix3 s' k q')) = ∑ k : Fin 64, X (ix2 r k) * Wt (ix3 s' k q')
  exact Finset.sum_congr rfl fun k _ => by rw [h0 p k r hi1, h1 s' k q']

variable (V : (c : Dev nD) → (b : Ref sig .tc) → Buf (Elt Ideal) ((c : Thread nD τ).loc b))

/-- Where the blocks sit: at grid point `t` the features block and the output block are the `t`-th along the
    node axis, and the weights are taken whole. -/
theorem yIdx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- What grid point `t` writes back is block `t` of the whole-array products: its features block is rows
    `2000 t … 2000 t + 1999` of the features, its weights are the whole weights, and its output block sits at the same
    rows of the result. -/
theorem yFlushed_eq (c : Dev nD) (t : Fin cfg0.N) :
    (dat0 (F := Ideal) V c).flushed 2 t
      = ((cfg0.win 2).blk t).view.read (Elt Ideal) (yArr (V c main_arg0) (V c main_arg3)) := by
  show (cfg0.win 2).cut (grid0.coords t) ((dat0 V c).after 2 t) = _
  rw [after0_2]
  refine (congrArg ((cfg0.win 2).cut (grid0.coords t)) (out0_eq_blkY (iblk0 V c 0 t) (iblk0 V c 1 t))).trans ?_
  obtain ⟨a0, a1, b0, b1, b2, o0, o1, o2⟩ := yIdx_facts t
  funext j
  show blkY (iblk0 V c 0 t) (iblk0 V c 1 t) j = yArr (V c main_arg0) (V c main_arg3) (((cfg0.win 2).blk t).view.emb j)
  refine blkY_read (V c main_arg0) (V c main_arg3) (iblk0 V c 0 t) (iblk0 V c 1 t) t.val ?_ ?_ j _ ?_ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 2000 + 1 * p.val = r.val; omega
    | ⟨1, _⟩ => show win0_0.index t (1 : Fin 2) * 64 + 1 * k.val = k.val; omega
  · intro s k q
    show V c main_arg3 (((cfg0.win 1).blk t).view.emb (ix3 s k q)) = V c main_arg3 (ix3 s k q)
    refine congrArg (V c main_arg3) (funext fun a => Fin.ext ?_)
    match a with
    | ⟨0, _⟩ => show win0_1.index t (0 : Fin 3) * 4 + 1 * s.val = s.val; omega
    | ⟨1, _⟩ => show win0_1.index t (1 : Fin 3) * 64 + 1 * k.val = k.val; omega
    | ⟨2, _⟩ => show win0_1.index t (2 : Fin 3) * 64 + 1 * q.val = q.val; omega
  · show win0_2.index t (0 : Fin 3) * 4 + 1 * (j 0).val = (j 0).val; omega
  · show win0_2.index t (1 : Fin 3) * 2000 + 1 * (j 1).val = t.val * 2000 + (j 1).val; omega
  · show win0_2.index t (2 : Fin 3) * 64 + 1 * (j 2).val = (j 2).val; omega

/-- An entry of the result array lies in grid point `t`'s block iff each coordinate is in the block's range. -/
theorem yMem_blk (t : Fin cfg0.N) (i : S4x50000x64.Idx) :
    i ∈ ((cfg0.win 2).blk t).view.set ↔ ∀ a : Fin 3, win0_2.index t a * S4x2000x64.size a ≤ (i a).val ∧ (i a).val < win0_2.index t a * S4x2000x64.size a + S4x2000x64.size a := by
  show i ∈ ((View.whole main_v4).slice (win0_2.rect t)).set ↔ _
  rw [View.set_slice_whole, Rect.mem_set_unit]
  exact Iff.rfl

/-- Every entry of the result array is written by some grid point: node `r` by point `r / 2000`. -/
theorem yCovered (i : S4x50000x64.Idx) :
    ∃ t : Fin cfg0.N, (cfg0.win 2).flush t = true ∧ i ∈ ((cfg0.win 2).blk t).view.set := by
  have hi0 : (i 0).val < 4 := (i 0).isLt
  have hi1 : (i 1).val < 50000 := (i 1).isLt
  have hi2 : (i 2).val < 64 := (i 2).isLt
  have hN : (i 1).val / 2000 < cfg0.N := by
    show (i 1).val / 2000 < 25
    omega
  refine ⟨⟨(i 1).val / 2000, hN⟩, flush0_2 _, ?_⟩
  rw [yMem_blk]
  obtain ⟨a0, a1, b0, b1, b2, o0, o1, o2⟩ := yIdx_facts ⟨(i 1).val / 2000, hN⟩
  have o1' : win0_2.index ⟨(i 1).val / 2000, hN⟩ (1 : Fin 3) = (i 1).val / 2000 := o1
  intro a
  match a with
  | ⟨0, _⟩ => show win0_2.index ⟨(i 1).val / 2000, hN⟩ (0 : Fin 3) * 4 ≤ (i 0).val ∧ (i 0).val < win0_2.index ⟨(i 1).val / 2000, hN⟩ (0 : Fin 3) * 4 + 4; omega
  | ⟨1, _⟩ => show win0_2.index ⟨(i 1).val / 2000, hN⟩ (1 : Fin 3) * 2000 ≤ (i 1).val ∧ (i 1).val < win0_2.index ⟨(i 1).val / 2000, hN⟩ (1 : Fin 3) * 2000 + 2000; omega
  | ⟨2, _⟩ => show win0_2.index ⟨(i 1).val / 2000, hN⟩ (2 : Fin 3) * 64 ≤ (i 2).val ∧ (i 2).val < win0_2.index ⟨(i 1).val / 2000, hN⟩ (2 : Fin 3) * 64 + 64; omega

/-- After the first launch its result array holds the four products of the features and weights it found. -/
theorem arrY (c : Dev nD) :
    (dat0 (F := Ideal) V c).arrAt 2 cfg0.N = yArr (V c main_arg0) (V c main_arg3) :=
  (dat0 (F := Ideal) V c).arrAt_eq_of_cover 2 (yArr (V c main_arg0) (V c main_arg3)) (fun t _ => yFlushed_eq V c t) yCovered

end Cert.KernelIdeal.Regions

end
-- ==== Proof.RegionRoot.lean ====
/-
  What the second kernel launch leaves in its result array, as a whole-array function of the arrays it finds.

  The launch walks the nodes in 10 blocks of 5000 rows and stores, for each block, the block of node features times the
  root matrix plus the bias row.
-/
import proofs.«404253_j14336600834347_2_alg».proof.Proof.Gen.KernelIdeal.Frame
import proofs.«404253_j14336600834347_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.SL.Sem Idealize.ShloMosaic.ValueIdx
open Idealize.ShloMosaic.Pipeline (Dat)
open Cert.KernelIdeal Cert.KernelIdeal.Gen

/-- The root term: entry `(n, c)` is row `n` of `x` times column `c` of `rw`, plus the bias row's entry `c`. -/
def rootArr (x : FVec Ideal S50000x64 .f32) (rw : FVec Ideal S64x64 .f32) (rb : FVec Ideal S1x64 .f32) :
    FVec Ideal S50000x64 .f32 :=
  fun i => (∑ k : Fin 64, x (ix2 (i 0) k) * rw (ix2 k (i 1))) + rb (ix2 0 (i 1))

/-- The offsets of an access to a whole buffer are all zero. -/
theorem rootZeroOff : (![0, 0] : Fin 2 → Nat) = fun _ => 0 := funext fun a => by fin_cases a <;> rfl

/-- One block's product plus bias, entry by entry: row `p` of the feature block times column `q` of the root matrix,
    plus the bias row's entry `q` (the narrowing casts are the identity on extended reals; the bias row is repeated
    down the rows). -/
theorem rootBlock_apply (x0 : Vec Ideal S5000x64 .f32) (x1 : Vec Ideal S64x64 .f32) (x2 : Vec Ideal S1x64 .f32)
    (p : Fin 5000) (q : Fin 64) :
    k1_pay1 (F := Ideal) x0 x1 x2 (ix2 p q) = (∑ k : Fin 64, x0 (ix2 p k) * x1 (ix2 k q)) + x2 (ix2 0 q) := by
  unfold k1_pay1
  have e1 := Cert.Lib.matmul_plain_apply dot_S5000x64_S64x64_S5000x64_1_0_0_1_n_n rfl rfl rfl rfl rfl rfl none
    (truncf (F := Ideal) FTy.bf16 x0 bitsLt_bf16_f32) (truncf (F := Ideal) FTy.bf16 x1 bitsLt_bf16_f32) p q
  have e2 := (broadcastTo_1b_ab_apply (shapeCast S1x64 x2 shapeCasts_S1x64_S1x64) broadcasts_S1x64_S5000x64 p q).trans
    (congrFun (shapeCast_self x2 shapeCasts_S1x64_S1x64) (ix2 0 q))
  exact congrArg₂ (· + ·) e1 e2

/-- The printed block index maps over the grid: the feature window moves with the result window down the rows, the root
    matrix and the bias row stay put, and the result's block at point `t` is row block `t`. -/
theorem rootBlockIdx : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block's product plus bias is the root term of the whole arrays at array index `i`, once the block's row of features,
    the root matrix's column and the bias entry it reads are the whole arrays' at `i`. -/
theorem rootBlock_eq_rootArr (x0 : Vec Ideal S5000x64 .f32) (x1 : Vec Ideal S64x64 .f32) (x2 : Vec Ideal S1x64 .f32)
    (A0 : FVec Ideal S50000x64 .f32) (A1 : FVec Ideal S64x64 .f32) (A2 : FVec Ideal S1x64 .f32)
    (j : S5000x64.Idx) (i : S50000x64.Idx)
    (h0 : ∀ k : Fin 64, x0 (ix2 (j 0) k) = A0 (ix2 (i 0) k))
    (h1 : ∀ k : Fin 64, x1 (ix2 k (j 1)) = A1 (ix2 k (i 1)))
    (h2 : x2 (ix2 0 (j 1)) = A2 (ix2 0 (i 1))) :
    k1_pay1 (F := Ideal) x0 x1 x2 j = rootArr A0 A1 A2 i := by
  obtain ⟨p, q, rfl⟩ : ∃ (p : Fin 5000) (q : Fin 64), j = ix2 p q := ⟨j 0, j 1, eq_ix2 j⟩
  rw [rootBlock_apply]
  unfold rootArr
  exact congrArg₂ (· + ·) (Finset.sum_congr rfl fun k _ => congrArg₂ (· * ·) (h0 k) (h1 k)) h2

/-- An index of the result array lies in point `t`'s block iff each coordinate lies in the block's range on its axis. -/
theorem mem_rootBlk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v11).slice (win1_3.rect t)).set ↔ _
  rw [View.set_slice_whole, Rect.mem_set_unit]
  exact Iff.rfl

/-- The ten row blocks fill the result array: row `r` lies in the block of point `r / 5000`, which is written back. -/
theorem rootCover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e30, e31⟩ := rootBlockIdx t
  refine ⟨t, flush1_3 t, ?_⟩
  rw [mem_rootBlk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

variable (V : (c : Dev nD) → (b : Ref sig .tc) → Buf (Elt Ideal) ((c : Thread nD τ).loc b))

/-- What point `t` writes back is block `t` of the root term of the arrays the launch finds. -/
theorem rootFlushed (c : Dev nD) (t : Fin cfg1.N) :
    (dat1 (F := Ideal) V c).flushed 3 t
      = ((cfg1.win 3).blk t).view.read (Elt Ideal) (rootArr (V c main_arg0) (V c main_arg4) (V c main_v10)) := by
  show (cfg1.win 3).cut (grid1.coords t) ((dat1 (F := Ideal) V c).after 3 t) = _
  rw [after1_3]
  unfold out1_3
  rw [View.canon_unit_zero rootZeroOff]
  simp only [View.ld_unit_zero (S := S5000x64) rootZeroOff, View.ld_unit_zero (S := S64x64) rootZeroOff,
    View.ld_unit_zero (S := S1x64) rootZeroOff]
  obtain ⟨e00, e01, e10, e11, e20, e21, e30, e31⟩ := rootBlockIdx t
  funext j
  refine rootBlock_eq_rootArr (iblk1 V c 0 t) (iblk1 V c 1 t) (iblk1 V c 2 t) (V c main_arg0) (V c main_arg4)
    (V c main_v10) j (((cfg1.win 3).blk t).view.emb j) ?_ ?_ ?_
  · intro k
    show V c main_arg0 (((cfg1.win 0).blk t).view.emb (ix2 (j 0) k))
      = V c main_arg0 (ix2 (((cfg1.win 3).blk t).view.emb j 0) k)
    refine congrArg (V c main_arg0) (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 64 + 1 * k.val = k.val
      omega
  · intro k
    show V c main_arg4 (((cfg1.win 1).blk t).view.emb (ix2 k (j 1)))
      = V c main_arg4 (ix2 k (((cfg1.win 3).blk t).view.emb j 1))
    refine congrArg (V c main_arg4) (funext fun a => Fin.ext ?_)
    match a with
    | ⟨0, _⟩ =>
      show win1_1.index t (0 : Fin 2) * 64 + 1 * k.val = k.val
      omega
    | ⟨1, _⟩ =>
      show win1_1.index t (1 : Fin 2) * 64 + 1 * (j 1).val = win1_3.index t (1 : Fin 2) * 64 + 1 * (j 1).val
      omega
  · show V c main_v10 (((cfg1.win 2).blk t).view.emb (ix2 0 (j 1)))
      = V c main_v10 (ix2 0 (((cfg1.win 3).blk t).view.emb j 1))
    refine congrArg (V c main_v10) (funext fun a => Fin.ext ?_)
    match a with
    | ⟨0, _⟩ =>
      show win1_2.index t (0 : Fin 2) * 1 + 1 * 0 = 0
      omega
    | ⟨1, _⟩ =>
      show win1_2.index t (1 : Fin 2) * 64 + 1 * (j 1).val = win1_3.index t (1 : Fin 2) * 64 + 1 * (j 1).val
      omega

/-- After the second launch its result array holds the root term of the features, root matrix and bias row it found. -/
theorem arrRoot (c : Dev nD) :
    (dat1 (F := Ideal) V c).arrAt 3 cfg1.N = rootArr (V c main_arg0) (V c main_arg4) (V c main_v10) :=
  (dat1 (F := Ideal) V c).arrAt_eq_of_cover 3 (rootArr (V c main_arg0) (V c main_arg4) (V c main_v10))
    (fun t _ => rootFlushed V c t) rootCover

end Cert.KernelIdeal.Regions

end
-- ==== Proof.Words.lean ====
/-
  Facts about 32-bit words read as signed integers, for the row numbers the kernel program computes: a type in
  `[0, 4)` times 50000 plus a source in `[0, 50000)` does not wrap and lies in `[0, 200000)`.
-/
import Idealize.ShloMosaic.PureOps
import Idealize.ShloMosaic.Lib.StableHlo.Predicate

noncomputable section

namespace Cert.Words

open Idealize.ShloMosaic

/-- A word whose signed value is non-negative has that value as its unsigned one. -/
theorem toNat_of_nonneg (w : BitVec 32) (h : 0 ≤ w.toInt) : (w.toNat : ℤ) = w.toInt ∧ w.toNat < 2 ^ 31 := by
  have := BitVec.toInt_eq_toNat_cond w
  have hlt := w.isLt
  split_ifs at this <;> omega

/-- The row number of an edge: type times 50000 plus source, with no wrap-around. -/
theorem toInt_rowNumber (t s : BitVec 32) (ht0 : 0 ≤ t.toInt) (ht : t.toInt < 4) (hs0 : 0 ≤ s.toInt) (hs : s.toInt < 50000) :
    (t * 50000#32 + s).toInt = t.toInt * 50000 + s.toInt := by
  obtain ⟨et, _⟩ := toNat_of_nonneg t ht0
  obtain ⟨es, _⟩ := toNat_of_nonneg s hs0
  have hn : (t * 50000#32 + s).toNat = t.toNat * 50000 + s.toNat := by
    rw [BitVec.toNat_add, BitVec.toNat_mul]
    show (t.toNat * 50000 % 2 ^ 32 + s.toNat) % 2 ^ 32 = _
    omega
  rw [StableHlo.Predicate.toInt_eq_toNat_of_lt (by omega)]
  omega

/-- A non-negative word fails the signed test "below zero". -/
theorem slt_zero_of_nonneg (w : BitVec 32) (h : 0 ≤ w.toInt) : IntOp.cmpi .slt w 0#32 = 0#1 := by
  unfold IntOp.cmpi
  have h0 : (0#32 : BitVec 32).toInt = 0 := by decide
  simp only [BitVec.slt, h0]
  rw [decide_eq_false (by omega)]
  rfl

/-- A word in `[0, hi]` passes both signed range tests. -/
theorem inRange_tests (w hi : BitVec 32) (h0 : 0 ≤ w.toInt) (h1 : w.toInt ≤ hi.toInt) :
    IntOp.andi (IntOp.cmpi .sge w 0#32) (IntOp.cmpi .sle w hi) = 1#1 := by
  unfold IntOp.cmpi
  have hz : (0#32 : BitVec 32).toInt = 0 := by decide
  simp only [BitVec.sle, hz]
  rw [decide_eq_true h0, decide_eq_true h1]
  rfl

end Cert.Words

end
-- ==== Proof.LibTakeRows.lean ====
/-
  A general lemma: `stablehlo.gather` of whole rows of a rank-2 operand, read at an index.

  What `x[idx]` of a table `x : [N, C]` at a vector of row indices lowers to: offset_dims `[1]`,
  collapsed_slice_dims `[0]`, start_index_map `[0]`, index_vector_dim `1` and slice_sizes `[1, C]` over the indices
  as `[E, 1]`. Result element `(e, k)` is the operand at row `idx[e, 0]` — read as a signed integer and clamped into
  `[0, N - 1]`, as the gather clamps every start index — and column `k`. Stated for any record with those dimension
  numbers, whatever sizes `N`, `C`, `E` and word width.
-/
import Idealize.ShloMosaic.PureOps.Ideal
import Idealize.ShloMosaic.Lib.ValueIdx

noncomputable section

namespace Cert.Lib

open Idealize.ShloMosaic Idealize.ShloMosaic.ValueIdx

namespace TakeRows

/-- Those dimension numbers as a literal record, for an operand `[N, C]`, start indices `[E, 1]` and result `[E, C]`;
    `wf` are their conditions. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather of the literal record at `(e, k)`. Axis 0 of the operand is collapsed and start-mapped: its
    coordinate is the clamped start index, with no batching and no offset part. Axis 1 is the one offset axis: its start
    is `0` (it is not start-mapped) and its offset coordinate is the result's coordinate `k`. -/
theorem gather_rowDims_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start-indices index read for component 0 of the start index of `(e, k)` is `[e, 0]`
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show ¬ (1 : Fin 2) ∈ (rowDims N C E wf).startIndexMap from
      fun h => absurd (List.mem_singleton.mp h) (by decide : ¬ (1 : Fin 2) = 0))]
    unfold GatherDims.offCoord
    rw [dif_pos (show (1 : Fin 2) ∈ (rowDims N C E wf).sKept from (GatherDims.mem_sKept _ _).mpr
      ⟨fun h => absurd (List.mem_singleton.mp h) (by decide : ¬ (1 : Fin 2) = 0), List.not_mem_nil⟩)]
    simp only [Nat.add_zero, Nat.zero_add]
    rfl

end TakeRows

open TakeRows

/-- THE ROW GATHER READ AT `(e, k)`: the operand at the start index `idx[e, 0]`, read signed and clamped into
    `[0, N - 1]`, column `k`. -/
theorem gather_rows_apply {α : Type} {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k) = x (ix2 ⟨min (idx (ix2 e 0)).toInt.toNat (N - 1), by omega⟩ k) := by
  -- a record with these fields is the literal one
  obtain ⟨od, cs, ob, sb, sm, iv, ss, wf⟩ := d
  simp only at h1 h2 h3 h4 h5 h6 h7
  subst h1 h2 h3 h4 h5 h6 h7
  exact gather_rowDims_apply hN wf x idx e k

end Cert.Lib

end
-- ==== Proof.LibSegmentSum.lean ====
/-
  General lemmas: the host's accumulating float scatter (`x.at[idx].add(u)`, a segment sum) at the ideal instance, read at
  an index, for the two shapes a segment sum over rows takes.

  The start index is read as a SIGNED integer and is NOT clamped: an update whose row index is negative or past the
  operand's last row lands nowhere. So the operand's row `n` receives exactly the update rows `e` whose index word,
  as a signed integer, is `n`.
-/
import Idealize.ShloMosaic.PureOps.Ideal
import Idealize.ShloMosaic.Lib.ValueIdx

noncomputable section

open scoped BigOperators

namespace Cert.Lib

open Idealize.ShloMosaic Idealize.ShloMosaic.ValueIdx

namespace SegmentSum

/-! ## Rows -/

/-- The row scatter's dimension numbers as a literal record, for an operand `[N, C]`, indices `[E, 1]` and updates
    `[E, C]`; `wf` are their conditions. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the operand's row axis the window of update `(e, k')` starts at the index word `idx[e, 0]`, read signed. -/
theorem rows_start0 : (rowScatterDims N C E wf).start (ix2 e k') idx 0 = (idx (ix2 e 0)).toInt := by
  unfold ScatterDims.start
  rw [dif_pos (show (0 : Fin 2) ∈ (rowScatterDims N C E wf).scatterDimsToOperandDims from List.mem_singleton.mpr rfl)]
  -- the scatter-indices index read for component 0 of the start index of `(e, k')` is `[e, 0]`
  have hsi : (rowScatterDims N C E wf).siIdx (ix2 e k')
      ⟨List.idxOf (0 : Fin 2) (rowScatterDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not index-mapped: the window starts at `0` there. -/
theorem rows_start1 : (rowScatterDims N C E wf).start (ix2 e k') idx 1 = 0 := by
  unfold ScatterDims.start
  rw [dif_neg (show ¬ (1 : Fin 2) ∈ (rowScatterDims N C E wf).scatterDimsToOperandDims from
    fun h => absurd (List.mem_singleton.mp h) (by decide : ¬ (1 : Fin 2) = 0))]

/-- The row axis is an inserted window axis: it has no window coordinate. -/
theorem rows_window0 : (rowScatterDims N C E wf).window (ix2 e k') 0 = 0 := by
  unfold ScatterDims.window
  rw [dif_neg (show ¬ (0 : Fin 2) ∈ (rowScatterDims N C E wf).sKept from fun h => by
    have h2 := (List.mem_filter.mp h).2
    simp at h2)]

/-- The column axis is the one window axis: its window coordinate is the update's column. -/
theorem rows_window1 : (rowScatterDims N C E wf).window (ix2 e k') 1 = k'.val := by
  unfold ScatterDims.window
  rw [dif_pos (show (1 : Fin 2) ∈ (rowScatterDims N C E wf).sKept from
    List.mem_filter.mpr ⟨List.mem_finRange _, by simp⟩)]
  rfl

/-- WHERE AN UPDATE LANDS: update `(e, k')` lands at operand element `(n, k)` exactly when its index word, read signed,
    is `n` and its column is `k`. (An index word outside `[0, N)` lands nowhere, so it equals no `n`.) -/
theorem rows_resultIdx_eq_some_iff (n : Fin N) (k : Fin C) :
    (rowScatterDims N C E wf).resultIdx? (ix2 e k') idx = some (ix2 n k)
      ↔ (idx (ix2 e 0)).toInt = (n.val : ℤ) ∧ k' = k := by
  have s0 := rows_start0 wf idx e k'
  have s1 := rows_start1 wf idx e k'
  have w0 := rows_window0 wf e k'
  have w1 := rows_window1 wf e k'
  unfold ScatterDims.resultIdx?
  split
  · rename_i h
    rw [Option.some.injEq]
    constructor
    · intro hf
      -- read the equation of indices on each axis
      have h0 : ((rowScatterDims N C E wf).start (ix2 e k') idx 0
          + ((rowScatterDims N C E wf).window (ix2 e k') 0 : ℕ)).toNat = n.val :=
        congrArg (fun i : (⟨2, ![N, C]⟩ : Shape).Idx => (i 0).val) hf
      have h1 : ((rowScatterDims N C E wf).start (ix2 e k') idx 1
          + ((rowScatterDims N C E wf).window (ix2 e k') 1 : ℕ)).toNat = k.val :=
        congrArg (fun i : (⟨2, ![N, C]⟩ : Shape).Idx => (i 1).val) hf
      have p0 := (h 0).1
      rw [s0, w0] at h0 p0
      rw [s1, w1] at h1
      exact ⟨by omega, Fin.ext (by omega)⟩
    · rintro ⟨hi, rfl⟩
      funext a
      refine Fin.ext ?_
      match a with
      | ⟨0, _⟩ =>
        show ((rowScatterDims N C E wf).start (ix2 e k') idx 0
          + ((rowScatterDims N C E wf).window (ix2 e k') 0 : ℕ)).toNat = n.val
        rw [s0, w0]; omega
      | ⟨1, _⟩ =>
        show ((rowScatterDims N C E wf).start (ix2 e k') idx 1
          + ((rowScatterDims N C E wf).window (ix2 e k') 1 : ℕ)).toNat = k'.val
        rw [s1, w1]; omega
  · rename_i h
    constructor
    · intro hf; exact absurd hf (by simp)
    · -- an index word equal to `n` is in range, and a column always is: the update does land
      rintro ⟨hi, rfl⟩
      refine absurd (fun a => ?_) h
      match a with
      | ⟨0, _⟩ =>
        show 0 ≤ (rowScatterDims N C E wf).start (ix2 e k') idx 0 + ((rowScatterDims N C E wf).window (ix2 e k') 0 : ℕ)
          ∧ (rowScatterDims N C E wf).start (ix2 e k') idx 0 + ((rowScatterDims N C E wf).window (ix2 e k') 0 : ℕ)
            < (N : ℤ)
        rw [s0, w0]; have := n.isLt; omega
      | ⟨1, _⟩ =>
        show 0 ≤ (rowScatterDims N C E wf).start (ix2 e k') idx 1 + ((rowScatterDims N C E wf).window (ix2 e k') 1 : ℕ)
          ∧ (rowScatterDims N C E wf).start (ix2 e k') idx 1 + ((rowScatterDims N C E wf).window (ix2 e k') 1 : ℕ)
            < (C : ℤ)
        rw [s1, w1]; have := k'.isLt; omega

end Rows

/-! ## Flat -/

/-- The flat scatter's dimension numbers as a literal record, for an operand `[N]`, indices `[E, 1]` and updates `[E]`;
    `wf` are their conditions. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range. -/
def idxEquiv1 {n : Nat} : Fin n ≃ (⟨1, ![n]⟩ : Shape).Idx where
  toFun := ix1
  invFun i := i 0
  left_inv _ := rfl
  right_inv i := (eq_ix1 i).symm

section Flat
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the index word `idx[e, 0]`, read signed. -/
theorem flat_start0 : (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  -- the scatter-indices index read for component 0 of the start index of `e` is `[e, 0]`
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- That axis is an inserted window axis: it has no window coordinate. -/
theorem flat_window0 : (flatScatterDims N E wf).window (ix1 e) 0 = 0 := by
  unfold ScatterDims.window
  rw [dif_neg (show ¬ (0 : Fin 1) ∈ (flatScatterDims N E wf).sKept from fun h => by
    have h2 := (List.mem_filter.mp h).2
    simp at h2)]

/-- WHERE AN UPDATE LANDS: update `e` lands at operand element `n` exactly when its index word, read signed, is `n`. -/
theorem flat_resultIdx_eq_some_iff (n : Fin N) :
    (flatScatterDims N E wf).resultIdx? (ix1 e) idx = some (ix1 n) ↔ (idx (ix2 e 0)).toInt = (n.val : ℤ) := by
  have s0 := flat_start0 wf idx e
  have w0 := flat_window0 wf e
  unfold ScatterDims.resultIdx?
  split
  · rename_i h
    rw [Option.some.injEq]
    constructor
    · intro hf
      have h0 : ((flatScatterDims N E wf).start (ix1 e) idx 0
          + ((flatScatterDims N E wf).window (ix1 e) 0 : ℕ)).toNat = n.val :=
        congrArg (fun i : (⟨1, ![N]⟩ : Shape).Idx => (i 0).val) hf
      have p0 := (h 0).1
      rw [s0, w0] at h0 p0
      omega
    · intro hi
      funext a
      refine Fin.ext ?_
      match a with
      | ⟨0, _⟩ =>
        show ((flatScatterDims N E wf).start (ix1 e) idx 0
          + ((flatScatterDims N E wf).window (ix1 e) 0 : ℕ)).toNat = n.val
        rw [s0, w0]; omega
  · rename_i h
    constructor
    · intro hf; exact absurd hf (by simp)
    · -- an index word equal to `n` is in range: the update does land
      intro hi
      refine absurd (fun a => ?_) h
      match a with
      | ⟨0, _⟩ =>
        show 0 ≤ (flatScatterDims N E wf).start (ix1 e) idx 0 + ((flatScatterDims N E wf).window (ix1 e) 0 : ℕ)
          ∧ (flatScatterDims N E wf).start (ix1 e) idx 0 + ((flatScatterDims N E wf).window (ix1 e) 0 : ℕ) < (N : ℤ)
        rw [s0, w0]; have := n.isLt; omega

end Flat

end SegmentSum

open SegmentSum

/-- ROWS: operand `[N, C]`, indices `[E, 1]`, updates `[E, C]` (update_window_dims `[1]`, inserted_window_dims `[0]`,
    scatter_dims_to_operand_dims `[0]`, index_vector_dim `1`). Element `(n, k)` is the operand's plus the sum of the
    updates' `(e, k)` over the rows `e` whose index is `n`. -/
theorem scatterAdd_rows_apply {N C E w : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e 0)).toInt = (n.val : ℤ)), upd (ix2 e k) := by
  -- a record with these fields is the literal one
  obtain ⟨uw, iw, sd, iv, wf⟩ := d
  simp only at h1 h2 h3 h4
  subst h1 h2 h3 h4
  unfold Ideal.hostScatterAdd
  congr 1
  -- both sides as sums of guarded terms; the left one over the updates' rows and columns
  rw [Finset.sum_filter, sum_idx2, Finset.sum_filter]
  refine Finset.sum_congr rfl fun e _ => ?_
  by_cases hq : (idx (ix2 e 0)).toInt = (n.val : ℤ)
  · -- a row whose index is `n` gives its column `k` and nothing else
    rw [if_pos hq, Finset.sum_eq_single k]
    · rw [if_pos ((rows_resultIdx_eq_some_iff wf idx e k n k).mpr ⟨hq, rfl⟩)]
    · intro k' _ hk'
      rw [if_neg fun h => hk' ((rows_resultIdx_eq_some_iff wf idx e k' n k).mp h).2]
    · intro h; exact absurd (Finset.mem_univ k) h
  · -- any other row gives nothing
    rw [if_neg hq]
    refine Finset.sum_eq_zero fun k' _ => ?_
    rw [if_neg fun h => hq ((rows_resultIdx_eq_some_iff wf idx e k' n k).mp h).1]

/-- FLAT: operand `[N]`, indices `[E, 1]`, updates `[E]` (no window axis, inserted_window_dims `[0]`,
    scatter_dims_to_operand_dims `[0]`, index_vector_dim `1`). Element `n` is the operand's plus the sum of the updates
    `e` whose index is `n`. -/
theorem scatterAdd_flat_apply {N E w : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  -- a record with these fields is the literal one
  obtain ⟨uw, iw, sd, iv, wf⟩ := d
  simp only at h1 h2 h3 h4
  subst h1 h2 h3 h4
  unfold Ideal.hostScatterAdd
  congr 1
  -- both sides as sums of guarded terms, matched along the bijection between update indices and rows
  rw [Finset.sum_filter, Finset.sum_filter]
  refine (Fintype.sum_equiv idxEquiv1 _ _ fun e => ?_).symm
  have hiff := flat_resultIdx_eq_some_iff wf idx e n
  show (if (idx (ix2 e 0)).toInt = (n.val : ℤ) then upd (ix1 e) else 0)
    = if (flatScatterDims N E wf).resultIdx? (ix1 e) idx = some (ix1 n) then upd (ix1 e) else 0
  by_cases hq : (idx (ix2 e 0)).toInt = (n.val : ℤ)
  · rw [if_pos hq, if_pos (hiff.mpr hq)]
  · rw [if_neg hq, if_neg fun h => hq (hiff.mp h)]

end Cert.Lib

end
-- ==== Proof.KernelMsg.lean ====
/-
  The taken rows are the messages, where the edge tables are in range.

  With every source a node and every type one of the four, an edge's row number — type times 50000 plus source — does
  not wrap and lies inside the table of 200000 rows, so it passes the range test and is read unclamped; laid out type
  by type, row `t · 50000 + s` of the table is row `s` of the product with weight matrix `t`, which is the edge's message.
-/
import proofs.«404253_j14336600834347_2_alg».proof.Proof.KernelTake
import proofs.«404253_j14336600834347_2_alg».proof.Proof.RegionY
import proofs.«404253_j14336600834347_2_alg».proof.Proof.RegionRoot
import proofs.«404253_j14336600834347_2_alg».proof.Proof.Spec
import proofs.«404253_j14336600834347_2_alg».proof.Proof.Words
import proofs.«404253_j14336600834347_2_alg».proof.Proof.LibTakeRows
import proofs.«404253_j14336600834347_2_alg».proof.Proof.LibSegmentSum
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

open scoped BigOperators

namespace Cert.KernelIdeal.Algebra

open Idealize.ShloMosaic Idealize.ShloMosaic.TcCoe Idealize.ShloMosaic.ValueIdx
open Cert.KernelIdeal Cert.KernelIdeal.Gen Cert.KernelIdeal.HostRead Cert.KernelIdeal.Regions

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduction by `and` from 1 is 1 at `j` when every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ (fun i hi => hx i ?_)
  have := (List.mem_filter.1 hi).2
  simpa using this

/-- Row 0 of the edge table, read at edge `e`, is the word at `(0, e)`. -/
theorem tableRow_zero_apply (ei : (⟨S2x1000000, .i32⟩ : BufTy).Contents (Elt Ideal)) (e : Fin 1000000) :
    tableRow (F := Ideal) 0 slices_S2x1000000_S1x1000000_0_0 ei (ix1 e) = ei (ix2 0 e) := by
  unfold tableRow
  refine (shapeCast_1a_a_apply _ _ e).trans ?_
  exact slice2_axis0_apply 0 ei _ 0 e 0 rfl

/-- The row number of edge `e`: its type times 50000 plus its source, as words. -/
theorem rowNumbers_apply (et src : (⟨S1000000, .i32⟩ : BufTy).Contents (Elt Ideal)) (e : Fin 1000000) :
    rowNumbers (F := Ideal) et src (ix1 e) = et (ix1 e) * 50000#32 + src (ix1 e) := rfl

/-- The column of row numbers at `(e, 0)`: the row number of `e`, counted from the end when negative. -/
theorem wrapCol_apply (n : BitVec 32) (idx : (⟨S1000000, .i32⟩ : BufTy).Contents (Elt Ideal)) (e : Fin 1000000) (u : Fin 1) :
    wrapCol (F := Ideal) n idx (ix2 e u)
      = Scalar.select (IntOp.cmpi .slt (idx (ix1 e)) 0#32) (idx (ix1 e) + n) (idx (ix1 e)) := by
  unfold wrapCol
  refine (broadcastInDim_apply _ _ _ (ix2 e u) (ix1 e) ?_).trans rfl
  intro a
  match a with
  | ⟨0, _⟩ =>
    show e.val = if (1000000 : Nat) = 1 then 0 else e.val
    rw [if_neg (by decide)]

/-- The range test at edge `e` is passed when the column's row number at `(e, 0)` lies in `[0, 199999]`. -/
theorem inTable_apply_one (col : (⟨S1000000x1, .i32⟩ : BufTy).Contents (Elt Ideal)) (e : Fin 1000000)
    (h0 : 0 ≤ (col (ix2 e 0)).toInt) (h1 : (col (ix2 e 0)).toInt ≤ 199999) : inTable (F := Ideal) col (ix1 e) = 1#1 := by
  unfold inTable
  refine reduce_andi_one _ _ _ _ _ rfl (fun i hi => ?_)
  -- the one element that reduces into `e` is `(e, 0)`
  have hi' : i = ix2 e 0 := by
    obtain ⟨p, q, rfl⟩ : ∃ (p : Fin 1000000) (q : Fin 1), i = ix2 p q := ⟨i 0, i 1, eq_ix2 i⟩
    obtain rfl : q = 0 := Subsingleton.elim _ _
    have hv : (reducesTo_S1000000x1_S1000000_d1.drop (ix2 p 0) 0 : Nat) = (ix2 p (0 : Fin 1)) 0 :=
      Shape.ReducesTo.drop_apply_val_of_eq _ _ 0 0
    rw [hi] at hv
    obtain rfl : e = p := Fin.ext hv
    rfl
  subst hi'
  show IntOp.andi (IntOp.cmpi .sge (col (ix2 e 0)) 0#32) (IntOp.cmpi .sle (col (ix2 e 0)) 199999#32) = 1#1
  refine Cert.Words.inRange_tests _ _ h0 ?_
  rw [show (199999#32 : BitVec 32).toInt = 199999 from by decide]
  exact h1

/-- The row taken for edge `e`, column `c`, is the message of `e`. -/
theorem taken_apply (x : (⟨S50000x64, .f32⟩ : BufTy).Contents (Elt Ideal)) (ei : (⟨S2x1000000, .i32⟩ : BufTy).Contents (Elt Ideal))
    (et : (⟨S1000000, .i32⟩ : BufTy).Contents (Elt Ideal)) (w : (⟨S4x64x64, .f32⟩ : BufTy).Contents (Elt Ideal))
    (h : Cert.Spec.InRange ei et) (e : Fin 1000000) (c : Fin 64) :
    takeRows (F := Ideal) (shapeCast S200000x64 (yArr x w) shapeCasts_S4x50000x64_S200000x64)
      (rowNumbers (F := Ideal) et (tableRow (F := Ideal) 0 slices_S2x1000000_S1x1000000_0_0 ei)) (ix2 e c)
    = Cert.Spec.msg x ei et w e c := by
  -- the row number of `e` as a word, and its signed value
  have hs := h.src e
  have ht := h.typ e
  have hsv := h.src_val e
  have htv := h.typ_val e
  have hts : (Cert.Spec.typOf et e).val < 4 := (Cert.Spec.typOf et e).isLt
  have hss : (Cert.Spec.srcOf ei e).val < 50000 := (Cert.Spec.srcOf ei e).isLt
  have hr : rowNumbers (F := Ideal) et (tableRow (F := Ideal) 0 slices_S2x1000000_S1x1000000_0_0 ei) (ix1 e)
      = et (ix1 e) * 50000#32 + ei (ix2 0 e) := by
    rw [rowNumbers_apply, tableRow_zero_apply]
  have hv : (et (ix1 e) * 50000#32 + ei (ix2 0 e)).toInt = (et (ix1 e)).toInt * 50000 + (ei (ix2 0 e)).toInt :=
    Cert.Words.toInt_rowNumber _ _ ht.1 ht.2 hs.1 hs.2
  -- a row number that is not negative is kept as it is
  have hcol : ∀ u : Fin 1, wrapCol (F := Ideal) 200000#32
      (rowNumbers (F := Ideal) et (tableRow (F := Ideal) 0 slices_S2x1000000_S1x1000000_0_0 ei)) (ix2 e u)
      = et (ix1 e) * 50000#32 + ei (ix2 0 e) := by
    intro u
    rw [wrapCol_apply, hr, Cert.Words.slt_zero_of_nonneg _ (by rw [hv]; omega), select_zero]
  rw [takeRows_eq, select_apply]
  -- so it passes the range test
  have htest : broadcastInDim S1000000x64 ![0] bcast_S1000000_S1000000x64_0
      (inTable (F := Ideal) (wrapCol (F := Ideal) 200000#32
        (rowNumbers (F := Ideal) et (tableRow (F := Ideal) 0 slices_S2x1000000_S1x1000000_0_0 ei)))) (ix2 e c) = 1#1 := by
    refine (broadcastInDim_apply _ _ _ (ix2 e c) (ix1 e) ?_).trans ?_
    · intro a
      match a with
      | ⟨0, _⟩ =>
        show e.val = if (1000000 : Nat) = 1 then 0 else e.val
        rw [if_neg (by decide)]
    · exact inTable_apply_one _ e (by rw [hcol, hv]; omega) (by rw [hcol, hv]; omega)
  rw [htest, select_one]
  -- and the row is read at the row number itself
  refine (Cert.Lib.gather_rows_apply (by decide) _ rfl rfl rfl rfl rfl rfl rfl _ _ e c).trans ?_
  -- laid out type by type, that row of the table is the source's row of the product with the type's weight matrix
  have hrow : (wrapCol (F := Ideal) 200000#32
      (rowNumbers (F := Ideal) et (tableRow (F := Ideal) 0 slices_S2x1000000_S1x1000000_0_0 ei)) (ix2 e 0)).toInt
      = ((Cert.Spec.typOf et e).val : ℤ) * 50000 + ((Cert.Spec.srcOf ei e).val : ℤ) := by
    rw [hcol, hv]; omega
  refine (shapeCast_apply _ _ _ (ix3 (Cert.Spec.typOf et e) (Cert.Spec.srcOf ei e) c) ?_).trans rfl
  rw [Shape.rowMajor_val_three, Shape.rowMajor_val_two]
  show ((Cert.Spec.typOf et e).val * 50000 + (Cert.Spec.srcOf ei e).val) * 64 + c.val
    = min (wrapCol (F := Ideal) 200000#32
        (rowNumbers (F := Ideal) et (tableRow (F := Ideal) 0 slices_S2x1000000_S1x1000000_0_0 ei)) (ix2 e 0)).toInt.toNat
        (200000 - 1) * 64 + c.val
  omega

end Cert.KernelIdeal.Algebra

end
-- ==== Proof.KernelDst.lean ====
/-
  The destination column and the root term, read at an index.

  With every destination a node, no destination is negative, so none is counted from the end: the column the result
  is added at holds the edge table's second row. The root term of the kernel program is the specification's: the
  bias laid out as a row and read at its only row is the bias.
-/
import proofs.«404253_j14336600834347_2_alg».proof.Proof.KernelTake
import proofs.«404253_j14336600834347_2_alg».proof.Proof.RegionY
import proofs.«404253_j14336600834347_2_alg».proof.Proof.RegionRoot
import proofs.«404253_j14336600834347_2_alg».proof.Proof.Spec
import proofs.«404253_j14336600834347_2_alg».proof.Proof.Words
import proofs.«404253_j14336600834347_2_alg».proof.Proof.LibTakeRows
import proofs.«404253_j14336600834347_2_alg».proof.Proof.LibSegmentSum
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

open scoped BigOperators

namespace Cert.KernelIdeal.Algebra

open Idealize.ShloMosaic Idealize.ShloMosaic.TcCoe Idealize.ShloMosaic.ValueIdx
open Cert.KernelIdeal Cert.KernelIdeal.Gen Cert.KernelIdeal.HostRead Cert.KernelIdeal.Regions

/-- Row 1 of the edge table, read at edge `e`. -/
theorem dstRow_apply (ei : (⟨S2x1000000, .i32⟩ : BufTy).Contents (Elt Ideal)) (e : Fin 1000000) :
    tableRow (F := Ideal) 1 slices_S2x1000000_S1x1000000_1_0 ei (ix1 e) = ei (ix2 1 e) := by
  unfold tableRow
  refine (shapeCast_dropUnit_apply ![1000000] _ _ (ix1 e)).trans ?_
  refine extractStridedSlice_apply _ ei _ _ (ix2 1 e) fun a => ?_
  match a with
  | ⟨0, _⟩ => rfl
  | ⟨1, _⟩ => show e.val = 0 + e.val; omega

/-- The destination the rows are added at, for edge `e`: the word of the edge table's second row, unchanged. -/
theorem dstCol_apply (ei : (⟨S2x1000000, .i32⟩ : BufTy).Contents (Elt Ideal)) (et : (⟨S1000000, .i32⟩ : BufTy).Contents (Elt Ideal))
    (h : Cert.Spec.InRange ei et) (e : Fin 1000000) :
    wrapCol (F := Ideal) 50000#32 (tableRow (F := Ideal) 1 slices_S2x1000000_S1x1000000_1_0 ei) (ix2 e 0) = ei (ix2 1 e) := by
  unfold wrapCol
  refine (broadcastInDim_apply ![0] _ _ (ix2 e (0 : Fin 1)) (ix1 e) fun a => ?_).trans ?_
  · match a with
    | ⟨0, _⟩ => rfl
  have ht := dstRow_apply ei e
  have hnn : 0 ≤ (ei (ix2 1 e)).toInt := (h.dst e).1
  show Scalar.select
      (IntOp.cmpi .slt (tableRow (F := Ideal) 1 slices_S2x1000000_S1x1000000_1_0 ei (ix1 e)) 0#32)
      (IntOp.addi (tableRow (F := Ideal) 1 slices_S2x1000000_S1x1000000_1_0 ei (ix1 e)) 50000#32)
      (tableRow (F := Ideal) 1 slices_S2x1000000_S1x1000000_1_0 ei (ix1 e)) = _
  rw [ht, Cert.Words.slt_zero_of_nonneg _ hnn, select_zero]

/-- The root term at `(n, c)`. -/
theorem rootTerm_apply (x : (⟨S50000x64, .f32⟩ : BufTy).Contents (Elt Ideal)) (rw : (⟨S64x64, .f32⟩ : BufTy).Contents (Elt Ideal))
    (rb : (⟨S64, .f32⟩ : BufTy).Contents (Elt Ideal)) (n : Fin 50000) (c : Fin 64) :
    rootArr x rw (shapeCast S1x64 rb shapeCasts_S64_S1x64) (ix2 n c) = Cert.Spec.root x rw rb n c := by
  show (∑ k : Fin 64, x (ix2 n k) * rw (ix2 k c)) + shapeCast S1x64 rb shapeCasts_S64_S1x64 (ix2 0 c)
    = (∑ k : Fin 64, x (ix2 n k) * rw (ix2 k c)) + rb (ix1 c)
  refine congrArg (fun z => (∑ k : Fin 64, x (ix2 n k) * rw (ix2 k c)) + z) ?_
  refine (shapeCast_addUnit_apply ![64] rb _ (ix2 0 c)).trans ?_
  exact congrArg rb (funext fun a => by match a with | ⟨0, _⟩ => rfl)

end Cert.KernelIdeal.Algebra

end
-- ==== Proof.KernelAlgebra.lean ====
/-
  The kernel program's result term is the specification's array, where the edge tables are in range.

  The result adds the taken rows into the root term at the destination rows. With every source a node and every type
  one of the four, an edge's row number — type times 50000 plus source — does not wrap, lies inside the table of 200000
  rows and names the row of the four products that belongs to the edge's type and source; that row is the edge's
  message. With every destination a node, no destination is counted from the end, so the rows are added where the
  specification adds them.
-/
import proofs.«404253_j14336600834347_2_alg».proof.Proof.KernelTake
import proofs.«404253_j14336600834347_2_alg».proof.Proof.KernelMsg
import proofs.«404253_j14336600834347_2_alg».proof.Proof.KernelDst
import proofs.«404253_j14336600834347_2_alg».proof.Proof.RegionY
import proofs.«404253_j14336600834347_2_alg».proof.Proof.RegionRoot
import proofs.«404253_j14336600834347_2_alg».proof.Proof.Spec
import proofs.«404253_j14336600834347_2_alg».proof.Proof.Words
import proofs.«404253_j14336600834347_2_alg».proof.Proof.LibTakeRows
import proofs.«404253_j14336600834347_2_alg».proof.Proof.LibSegmentSum
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

open scoped BigOperators

namespace Cert.KernelIdeal.Algebra

open Idealize.ShloMosaic Idealize.ShloMosaic.TcCoe Idealize.ShloMosaic.ValueIdx
open Cert.KernelIdeal Cert.KernelIdeal.Gen Cert.KernelIdeal.HostRead Cert.KernelIdeal.Regions

/-- The kernel program's result term, as a function of the six arguments. -/
def kernelTerm (x : (⟨S50000x64, .f32⟩ : BufTy).Contents (Elt Ideal)) (ei : (⟨S2x1000000, .i32⟩ : BufTy).Contents (Elt Ideal))
    (et : (⟨S1000000, .i32⟩ : BufTy).Contents (Elt Ideal)) (w : (⟨S4x64x64, .f32⟩ : BufTy).Contents (Elt Ideal))
    (rw : (⟨S64x64, .f32⟩ : BufTy).Contents (Elt Ideal)) (rb : (⟨S64, .f32⟩ : BufTy).Contents (Elt Ideal)) :
    (⟨S50000x64, .f32⟩ : BufTy).Contents (Elt Ideal) :=
  Host.scatterAdd (F := Ideal) scatter_S50000x64_S1000000x1_S1000000x64_1_0_0_1
    (rootArr x rw (shapeCast S1x64 rb shapeCasts_S64_S1x64))
    (wrapCol (F := Ideal) 50000#32 (tableRow (F := Ideal) 1 slices_S2x1000000_S1x1000000_1_0 ei))
    (takeRows (F := Ideal) (shapeCast S200000x64 (yArr x w) shapeCasts_S4x50000x64_S200000x64)
      (rowNumbers (F := Ideal) et (tableRow (F := Ideal) 0 slices_S2x1000000_S1x1000000_0_0 ei)))

/-- Where the edge tables are in range, the kernel program's result term is the specification's array. -/
theorem kernelTerm_eq (x : (⟨S50000x64, .f32⟩ : BufTy).Contents (Elt Ideal)) (ei : (⟨S2x1000000, .i32⟩ : BufTy).Contents (Elt Ideal))
    (et : (⟨S1000000, .i32⟩ : BufTy).Contents (Elt Ideal)) (w : (⟨S4x64x64, .f32⟩ : BufTy).Contents (Elt Ideal))
    (rw : (⟨S64x64, .f32⟩ : BufTy).Contents (Elt Ideal)) (rb : (⟨S64, .f32⟩ : BufTy).Contents (Elt Ideal))
    (h : Cert.Spec.InRange ei et) :
    kernelTerm x ei et w rw rb = Cert.Spec.outArr x ei et w rw rb := by
  funext i
  obtain ⟨n, c, rfl⟩ : ∃ (n : Fin 50000) (c : Fin 64), i = ix2 n c := ⟨i 0, i 1, eq_ix2 i⟩
  rw [Cert.Spec.outArr_apply]
  unfold kernelTerm Cert.Spec.out
  refine (Cert.Lib.scatterAdd_rows_apply scatter_S50000x64_S1000000x1_S1000000x64_1_0_0_1 rfl rfl rfl rfl _ _ _ n c).trans ?_
  rw [rootTerm_apply]
  refine congrArg (fun s : EReal => Cert.Spec.root x rw rb n c + s) ?_
  refine Finset.sum_congr (Finset.filter_congr fun e _ => by rw [dstCol_apply ei et h e]) fun e _ => ?_
  exact taken_apply x ei et w h e c

end Cert.KernelIdeal.Algebra

end
-- ==== Proof.KernelValue.lean ====
/-
  The kernel program's result buffer at the end of the run, read back through the run's stages to the launch memory:
  it is the result term of the six arguments. The stages: the edge table's two rows; the first launch's four products
  of the features and weights; the table of 200000 rows, the row numbers and the taken rows; the bias as a row; the
  second launch's root term; the taken rows added into it.
-/
import proofs.«404253_j14336600834347_2_alg».proof.Proof.KernelRun
import proofs.«404253_j14336600834347_2_alg».proof.Proof.KernelTake
import proofs.«404253_j14336600834347_2_alg».proof.Proof.KernelAlgebra
import proofs.«404253_j14336600834347_2_alg».proof.Proof.RegionY
import proofs.«404253_j14336600834347_2_alg».proof.Proof.RegionRoot

set_option maxRecDepth 16384

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.HostRead Cert.KernelIdeal.Regions Cert.KernelIdeal.Algebra

variable (m : (ℓ : Loc nD τ sig) → Buf (Elt Ideal) ℓ) (ρ : Dev nD → PrngReg)

/-! ## Up to the first launch -/

theorem at1_x (c : Dev nD) : W1 m ρ c (Proc.devRef .tc main_arg0) = m ((c : Thread nD τ).loc main_arg0) := pre_arg0 (W0 m ρ c)
theorem at1_et (c : Dev nD) : W1 m ρ c (Proc.devRef .tc main_arg2) = m ((c : Thread nD τ).loc main_arg2) := pre_arg2 (W0 m ρ c)
theorem at1_w (c : Dev nD) : W1 m ρ c (Proc.devRef .tc main_arg3) = m ((c : Thread nD τ).loc main_arg3) := pre_arg3 (W0 m ρ c)
theorem at1_rw (c : Dev nD) : W1 m ρ c (Proc.devRef .tc main_arg4) = m ((c : Thread nD τ).loc main_arg4) := pre_arg4 (W0 m ρ c)
theorem at1_rb (c : Dev nD) : W1 m ρ c (Proc.devRef .tc main_arg5) = m ((c : Thread nD τ).loc main_arg5) := pre_arg5 (W0 m ρ c)
theorem at1_src (c : Dev nD) : W1 m ρ c (Proc.devRef .tc main_v1)
    = tableRow 0 slices_S2x1000000_S1x1000000_0_0 (m ((c : Thread nD τ).loc main_arg1)) := pre_src (W0 m ρ c)
theorem at1_dst (c : Dev nD) : W1 m ρ c (Proc.devRef .tc main_v3)
    = tableRow 1 slices_S2x1000000_S1x1000000_1_0 (m ((c : Thread nD τ).loc main_arg1)) := pre_dst (W0 m ρ c)

/-! ## After the first launch -/

theorem at2_y (c : Dev nD) : W2 m ρ c (Proc.devRef .tc main_v4)
    = yArr (m ((c : Thread nD τ).loc main_arg0)) (m ((c : Thread nD τ).loc main_arg3)) :=
  (W2_arr m ρ c 2).trans ((arrY (V1 m ρ) c).trans (congrArg₂ yArr (at1_x m ρ c) (at1_w m ρ c)))
theorem at2_x (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (at1_x m ρ c)
theorem at2_et (c : Dev nD) : W2 m ρ c (Proc.devRef .tc main_arg2) = m ((c : Thread nD τ).loc main_arg2) :=
  (W2_of_ne m ρ c main_arg2 (by decide)).trans (at1_et m ρ c)
theorem at2_rw (c : Dev nD) : W2 m ρ c (Proc.devRef .tc main_arg4) = m ((c : Thread nD τ).loc main_arg4) :=
  (W2_of_ne m ρ c main_arg4 (by decide)).trans (at1_rw m ρ c)
theorem at2_rb (c : Dev nD) : W2 m ρ c (Proc.devRef .tc main_arg5) = m ((c : Thread nD τ).loc main_arg5) :=
  (W2_of_ne m ρ c main_arg5 (by decide)).trans (at1_rb m ρ c)
theorem at2_src (c : Dev nD) : W2 m ρ c (Proc.devRef .tc main_v1)
    = tableRow 0 slices_S2x1000000_S1x1000000_0_0 (m ((c : Thread nD τ).loc main_arg1)) :=
  (W2_of_ne m ρ c main_v1 (by decide)).trans (at1_src m ρ c)
theorem at2_dst (c : Dev nD) : W2 m ρ c (Proc.devRef .tc main_v3)
    = tableRow 1 slices_S2x1000000_S1x1000000_1_0 (m ((c : Thread nD τ).loc main_arg1)) :=
  (W2_of_ne m ρ c main_v3 (by decide)).trans (at1_dst m ρ c)

/-! ## Up to the second launch -/

theorem at4_taken (c : Dev nD) : W4 m ρ c (Proc.devRef .tc main_v9)
    = takeRows (shapeCast S200000x64 (yArr (m ((c : Thread nD τ).loc main_arg0)) (m ((c : Thread nD τ).loc main_arg3)))
        shapeCasts_S4x50000x64_S200000x64)
      (rowNumbers (m ((c : Thread nD τ).loc main_arg2))
        (tableRow 0 slices_S2x1000000_S1x1000000_0_0 (m ((c : Thread nD τ).loc main_arg1)))) := by
  refine (take_rows (W3 m ρ c)).trans ?_
  rw [show W3 m ρ c (Proc.devRef .tc main_v5) = _ from mid_table (W2 m ρ c),
    show W3 m ρ c (Proc.devRef .tc main_v8) = _ from mid_rows (W2 m ρ c), at2_y, at2_et, at2_src]

theorem at5_x (c : Dev nD) : W5 m ρ c (Proc.devRef .tc main_arg0) = m ((c : Thread nD τ).loc main_arg0) :=
  (bias_arg0 (W4 m ρ c)).trans ((take_arg0 (W3 m ρ c)).trans ((mid_arg0 (W2 m ρ c)).trans (at2_x m ρ c)))
theorem at5_rw (c : Dev nD) : W5 m ρ c (Proc.devRef .tc main_arg4) = m ((c : Thread nD τ).loc main_arg4) :=
  (bias_arg4 (W4 m ρ c)).trans ((take_arg4 (W3 m ρ c)).trans ((mid_arg4 (W2 m ρ c)).trans (at2_rw m ρ c)))
theorem at5_bias (c : Dev nD) : W5 m ρ c (Proc.devRef .tc main_v10)
    = shapeCast S1x64 (m ((c : Thread nD τ).loc main_arg5)) shapeCasts_S64_S1x64 := by
  refine (bias_row (W4 m ρ c)).trans ?_
  rw [show W4 m ρ c (Proc.devRef .tc main_arg5) = _ from
    (take_arg5 (W3 m ρ c)).trans ((mid_arg5 (W2 m ρ c)).trans (at2_rb m ρ c))]
theorem at5_dst (c : Dev nD) : W5 m ρ c (Proc.devRef .tc main_v3)
    = tableRow 1 slices_S2x1000000_S1x1000000_1_0 (m ((c : Thread nD τ).loc main_arg1)) :=
  (bias_dst (W4 m ρ c)).trans ((take_dst (W3 m ρ c)).trans ((mid_dst (W2 m ρ c)).trans (at2_dst m ρ c)))
theorem at5_taken (c : Dev nD) : W5 m ρ c (Proc.devRef .tc main_v9) = W4 m ρ c (Proc.devRef .tc main_v9) :=
  bias_taken (W4 m ρ c)

/-! ## After the second launch, and the result -/

theorem at6_root (c : Dev nD) : W6 m ρ c (Proc.devRef .tc main_v11)
    = rootArr (m ((c : Thread nD τ).loc main_arg0)) (m ((c : Thread nD τ).loc main_arg4))
        (shapeCast S1x64 (m ((c : Thread nD τ).loc main_arg5)) shapeCasts_S64_S1x64) := by
  refine (W6_arr m ρ c 3).trans ((arrRoot (V5 m ρ) c).trans ?_)
  rw [show V5 m ρ c main_arg0 = _ from at5_x m ρ c, show V5 m ρ c main_arg4 = _ from at5_rw m ρ c,
    show V5 m ρ c main_v10 = _ from at5_bias m ρ c]

/-- THE RESULT BUFFER at the end of the run is the result term of the six arguments. -/
theorem result_term (c : Dev nD) : W7 m ρ c (Proc.devRef .tc main_v18)
    = kernelTerm (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (post_result (W6 m ρ c)).trans ?_
  rw [at6_root, show W6 m ρ c (Proc.devRef .tc main_v3) = _ from (W6_of_ne m ρ c main_v3 (by decide)).trans (at5_dst m ρ c),
    show W6 m ρ c (Proc.devRef .tc main_v9) = _ from
      (W6_of_ne m ρ c main_v9 (by decide)).trans ((at5_taken m ρ c).trans (at4_taken m ρ c))]
  rfl

end Cert.KernelIdeal.Result

end
-- ==== Proof.RefValue.lean ====
/-
  The reference program's result is the specification's array, where the edge tables are in range.

  The reference gathers each edge's source row, multiplies the gathered rows by each of the four weight matrices,
  keeps for each edge the product of its own type (the other three are replaced by zero) and adds the four, sums the
  messages into their destination rows starting from zero, and then adds the root product and the bias.
-/
import proofs.«404253_j14336600834347_2_alg».proof.Proof.Gen.ReferenceIdeal.Read
import proofs.«404253_j14336600834347_2_alg».proof.Proof.Spec
import proofs.«404253_j14336600834347_2_alg».proof.Proof.LibTakeRows
import proofs.«404253_j14336600834347_2_alg».proof.Proof.LibSegmentSum
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- Of four terms, each kept when the word `w` is its number and replaced by zero otherwise, the sum is the term whose
    number `w` is, when `w` is one of the four numbers. -/
theorem pick4 (w : BitVec 32) (t : Fin 4) (hw : w.toInt = (t.val : ℤ)) (D : Fin 4 → EReal) :
    (((0 + Scalar.select (IntOp.cmpi .eq w 0#32) (D 0) 0) + Scalar.select (IntOp.cmpi .eq w 1#32) (D 1) 0)
      + Scalar.select (IntOp.cmpi .eq w 2#32) (D 2) 0) + Scalar.select (IntOp.cmpi .eq w 3#32) (D 3) 0 = D t := by
  have e : w = BitVec.ofNat 32 t.val := BitVec.eq_of_toInt_eq (by rw [hw]; fin_cases t <;> rfl)
  subst e
  fin_cases t
  · show (((0 + Scalar.select 1#1 (D 0) 0) + Scalar.select 0#1 (D 1) 0) + Scalar.select 0#1 (D 2) 0)
      + Scalar.select 0#1 (D 3) 0 = D 0
    simp only [select_one, select_zero, zero_add, add_zero]
  · show (((0 + Scalar.select 0#1 (D 0) 0) + Scalar.select 1#1 (D 1) 0) + Scalar.select 0#1 (D 2) 0)
      + Scalar.select 0#1 (D 3) 0 = D 1
    simp only [select_one, select_zero, zero_add, add_zero]
  · show (((0 + Scalar.select 0#1 (D 0) 0) + Scalar.select 0#1 (D 1) 0) + Scalar.select 1#1 (D 2) 0)
      + Scalar.select 0#1 (D 3) 0 = D 2
    simp only [select_one, select_zero, zero_add, add_zero]
  · show (((0 + Scalar.select 0#1 (D 0) 0) + Scalar.select 0#1 (D 1) 0) + Scalar.select 0#1 (D 2) 0)
      + Scalar.select 1#1 (D 3) 0 = D 3
    simp only [select_one, select_zero, zero_add, add_zero]

section Stages

variable (x0 : (⟨S50000x64, .f32⟩ : BufTy).Contents (Elt Ideal)) (x1 : (⟨S2x1000000, .i32⟩ : BufTy).Contents (Elt Ideal))
  (x2 : (⟨S1000000, .i32⟩ : BufTy).Contents (Elt Ideal)) (x3 : (⟨S4x64x64, .f32⟩ : BufTy).Contents (Elt Ideal))
  (x4 : (⟨S64x64, .f32⟩ : BufTy).Contents (Elt Ideal)) (x5 : (⟨S64, .f32⟩ : BufTy).Contents (Elt Ideal))

/-! ## The edge table's two rows -/

/-- Row 0 of the edge table as a vector: its word `e` is the table's word `(0, e)`. -/
theorem row0_apply (e : Fin 1000000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge table as a vector: its word `e` is the table's word `(1, e)`. -/
theorem row1_apply (e : Fin 1000000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The source column: a source word in range is not negative, so it is kept as it is. -/
theorem srcCol_apply (h : Cert.Spec.InRange x1 x2) (e : Fin 1000000) :
    val_main_v9 (F := Ideal) x1 (ix2 e 0) = x1 (ix2 0 e) := by
  rw [val_main_v9_apply]
  have hi : idx_main_v9 (ix2 e (0 : Fin 1)) = ix1 e := funext fun a => match a with | ⟨0, _⟩ => rfl
  rw [hi, val_main_v8_apply, val_main_v5_apply, val_main_v4_apply, val_main_c_apply, row0_apply]
  have hs : (x1 (ix2 0 e)).slt 0#32 = false := by
    refine Bool.eq_false_iff.mpr fun hs => ?_
    rw [BitVec.slt_iff_toInt_lt] at hs
    have h0 : (0#32 : BitVec 32).toInt = 0 := rfl
    have := (h.src e).1
    omega
  have hneg : IntOp.cmpi .slt (x1 (ix2 0 e)) 0#32 = 0#1 := by
    show BitVec.ofBool ((x1 (ix2 0 e)).slt 0#32) = 0#1
    rw [hs]; rfl
  rw [hneg, select_zero]

/-- The destination column: its word `e` is the table's word `(1, e)`. -/
theorem dstCol_apply (e : Fin 1000000) : val_main_v45 (F := Ideal) x1 (ix2 e 0) = x1 (ix2 1 e) := by
  rw [val_main_v45_apply]
  have hi : idx_main_v45 (ix2 e (0 : Fin 1)) = ix1 e := funext fun a => match a with | ⟨0, _⟩ => rfl
  rw [hi, row1_apply]

/-! ## The gathered rows and the four products -/

/-- Row `e` of the gathered array is the feature row of edge `e`'s source node. -/
theorem gathered_apply (h : Cert.Spec.InRange x1 x2) (e : Fin 1000000) (k : Fin 64) :
    val_main_v10 (F := Ideal) x0 x1 (ix2 e k) = x0 (ix2 (Cert.Spec.srcOf x1 e) k) := by
  unfold val_main_v10
  rw [Cert.Lib.gather_rows_apply (by decide) _ rfl rfl rfl rfl rfl rfl rfl]
  refine congrArg x0 (congrArg (fun r => ix2 r k) (Fin.ext ?_))
  show min (val_main_v9 (F := Ideal) x1 (ix2 e 0)).toInt.toNat (50000 - 1) = min (x1 (ix2 0 e)).toInt.toNat 49999
  rw [srcCol_apply x1 x2 h e]

/-- Weight matrix 0 as a matrix: entry `(k, c)` of the reshaped slice is the stack's entry `(0, k, c)`. -/
theorem weight0_apply (k c : Fin 64) : val_main_v16 (F := Ideal) x3 (ix2 k c) = x3 (ix3 0 k c) := by
  rw [val_main_v16_apply, val_main_v15_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- The gathered rows times weight matrix 0, at edge `e` and column `c`. -/
theorem prod0_apply (h : Cert.Spec.InRange x1 x2) (e : Fin 1000000) (c : Fin 64) :
    val_main_v17 (F := Ideal) x0 x1 x3 (ix2 e c)
      = ∑ k : Fin 64, x0 (ix2 (Cert.Spec.srcOf x1 e) k) * x3 (ix3 0 k c) := by
  rw [val_main_v17_apply]
  refine Finset.sum_congr rfl fun k _ => ?_
  have hl : lidx_main_v17 (ix2 e c) k = ix2 e k := funext fun a => match a with | ⟨0, _⟩ => rfl | ⟨1, _⟩ => rfl
  have hr : ridx_main_v17 (ix2 e c) k = ix2 k c := funext fun a => match a with | ⟨0, _⟩ => rfl | ⟨1, _⟩ => rfl
  rw [hl, hr, gathered_apply x0 x1 x2 h e k, weight0_apply]

/-- Weight matrix 1 as a matrix: entry `(k, c)` of the reshaped slice is the stack's entry `(1, k, c)`. -/
theorem weight1_apply (k c : Fin 64) : val_main_v24 (F := Ideal) x3 (ix2 k c) = x3 (ix3 1 k c) := by
  rw [val_main_v24_apply, val_main_v23_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- The gathered rows times weight matrix 1, at edge `e` and column `c`. -/
theorem prod1_apply (h : Cert.Spec.InRange x1 x2) (e : Fin 1000000) (c : Fin 64) :
    val_main_v25 (F := Ideal) x0 x1 x3 (ix2 e c)
      = ∑ k : Fin 64, x0 (ix2 (Cert.Spec.srcOf x1 e) k) * x3 (ix3 1 k c) := by
  rw [val_main_v25_apply]
  refine Finset.sum_congr rfl fun k _ => ?_
  have hl : lidx_main_v25 (ix2 e c) k = ix2 e k := funext fun a => match a with | ⟨0, _⟩ => rfl | ⟨1, _⟩ => rfl
  have hr : ridx_main_v25 (ix2 e c) k = ix2 k c := funext fun a => match a with | ⟨0, _⟩ => rfl | ⟨1, _⟩ => rfl
  rw [hl, hr, gathered_apply x0 x1 x2 h e k, weight1_apply]

/-- Weight matrix 2 as a matrix: entry `(k, c)` of the reshaped slice is the stack's entry `(2, k, c)`. -/
theorem weight2_apply (k c : Fin 64) : val_main_v32 (F := Ideal) x3 (ix2 k c) = x3 (ix3 2 k c) := by
  rw [val_main_v32_apply, val_main_v31_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- The gathered rows times weight matrix 2, at edge `e` and column `c`. -/
theorem prod2_apply (h : Cert.Spec.InRange x1 x2) (e : Fin 1000000) (c : Fin 64) :
    val_main_v33 (F := Ideal) x0 x1 x3 (ix2 e c)
      = ∑ k : Fin 64, x0 (ix2 (Cert.Spec.srcOf x1 e) k) * x3 (ix3 2 k c) := by
  rw [val_main_v33_apply]
  refine Finset.sum_congr rfl fun k _ => ?_
  have hl : lidx_main_v33 (ix2 e c) k = ix2 e k := funext fun a => match a with | ⟨0, _⟩ => rfl | ⟨1, _⟩ => rfl
  have hr : ridx_main_v33 (ix2 e c) k = ix2 k c := funext fun a => match a with | ⟨0, _⟩ => rfl | ⟨1, _⟩ => rfl
  rw [hl, hr, gathered_apply x0 x1 x2 h e k, weight2_apply]

/-- Weight matrix 3 as a matrix: entry `(k, c)` of the reshaped slice is the stack's entry `(3, k, c)`. -/
theorem weight3_apply (k c : Fin 64) : val_main_v40 (F := Ideal) x3 (ix2 k c) = x3 (ix3 3 k c) := by
  rw [val_main_v40_apply, val_main_v39_apply]
  refine congrArg x3 (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- The gathered rows times weight matrix 3, at edge `e` and column `c`. -/
theorem prod3_apply (h : Cert.Spec.InRange x1 x2) (e : Fin 1000000) (c : Fin 64) :
    val_main_v41 (F := Ideal) x0 x1 x3 (ix2 e c)
      = ∑ k : Fin 64, x0 (ix2 (Cert.Spec.srcOf x1 e) k) * x3 (ix3 3 k c) := by
  rw [val_main_v41_apply]
  refine Finset.sum_congr rfl fun k _ => ?_
  have hl : lidx_main_v41 (ix2 e c) k = ix2 e k := funext fun a => match a with | ⟨0, _⟩ => rfl | ⟨1, _⟩ => rfl
  have hr : ridx_main_v41 (ix2 e c) k = ix2 k c := funext fun a => match a with | ⟨0, _⟩ => rfl | ⟨1, _⟩ => rfl
  rw [hl, hr, gathered_apply x0 x1 x2 h e k, weight3_apply]

/-! ## The four masks and the messages -/

/-- The mask of type 0 at edge `e`, any column: whether the edge's type word is 0. -/
theorem mask0_apply (e : Fin 1000000) (c : Fin 64) :
    val_main_call0_v1 (F := Ideal) x2 (ix2 e c) = IntOp.cmpi .eq (x2 (ix1 e)) 0#32 := by
  rw [val_main_call0_v1_apply]
  have h1 : idx_main_call0_v1 (ix2 e c) = ix2 e 0 := funext fun a => match a with | ⟨0, _⟩ => rfl | ⟨1, _⟩ => rfl
  rw [h1, val_main_v14_apply]
  have h2 : idx_main_v14 (ix2 e (0 : Fin 1)) = ix1 e := funext fun a => match a with | ⟨0, _⟩ => rfl
  rw [h2, val_main_v13_apply, val_main_v12_apply, val_main_c_1_apply]

/-- What replaces the products of the other types: zero. -/
theorem fill0_apply (i : S1000000x64.Idx) : val_main_call0_v2 (F := Ideal) i = (0 : EReal) := by
  rw [val_main_call0_v2_apply, val_main_call0_v0_apply, val_main_cst_2_apply, Ideal.ofBits_def, Ideal.ofBits_zero_f32]

/-- The mask of type 1 at edge `e`, any column: whether the edge's type word is 1. -/
theorem mask1_apply (e : Fin 1000000) (c : Fin 64) :
    val_main_call1_v1 (F := Ideal) x2 (ix2 e c) = IntOp.cmpi .eq (x2 (ix1 e)) 1#32 := by
  rw [val_main_call1_v1_apply]
  have h1 : idx_main_call1_v1 (ix2 e c) = ix2 e 0 := funext fun a => match a with | ⟨0, _⟩ => rfl | ⟨1, _⟩ => rfl
  rw [h1, val_main_v22_apply]
  have h2 : idx_main_v22 (ix2 e (0 : Fin 1)) = ix1 e := funext fun a => match a with | ⟨0, _⟩ => rfl
  rw [h2, val_main_v21_apply, val_main_v20_apply, val_main_c_3_apply]

/-- What replaces the products of the other types: zero. -/
theorem fill1_apply (i : S1000000x64.Idx) : val_main_call1_v2 (F := Ideal) i = (0 : EReal) := by
  rw [val_main_call1_v2_apply, val_main_call1_v0_apply, val_main_cst_4_apply, Ideal.ofBits_def, Ideal.ofBits_zero_f32]

/-- The mask of type 2 at edge `e`, any column: whether the edge's type word is 2. -/
theorem mask2_apply (e : Fin 1000000) (c : Fin 64) :
    val_main_call2_v1 (F := Ideal) x2 (ix2 e c) = IntOp.cmpi .eq (x2 (ix1 e)) 2#32 := by
  rw [val_main_call2_v1_apply]
  have h1 : idx_main_call2_v1 (ix2 e c) = ix2 e 0 := funext fun a => match a with | ⟨0, _⟩ => rfl | ⟨1, _⟩ => rfl
  rw [h1, val_main_v30_apply]
  have h2 : idx_main_v30 (ix2 e (0 : Fin 1)) = ix1 e := funext fun a => match a with | ⟨0, _⟩ => rfl
  rw [h2, val_main_v29_apply, val_main_v28_apply, val_main_c_5_apply]

/-- What replaces the products of the other types: zero. -/
theorem fill2_apply (i : S1000000x64.Idx) : val_main_call2_v2 (F := Ideal) i = (0 : EReal) := by
  rw [val_main_call2_v2_apply, val_main_call2_v0_apply, val_main_cst_6_apply, Ideal.ofBits_def, Ideal.ofBits_zero_f32]

/-- The mask of type 3 at edge `e`, any column: whether the edge's type word is 3. -/
theorem mask3_apply (e : Fin 1000000) (c : Fin 64) :
    val_main_call3_v1 (F := Ideal) x2 (ix2 e c) = IntOp.cmpi .eq (x2 (ix1 e)) 3#32 := by
  rw [val_main_call3_v1_apply]
  have h1 : idx_main_call3_v1 (ix2 e c) = ix2 e 0 := funext fun a => match a with | ⟨0, _⟩ => rfl | ⟨1, _⟩ => rfl
  rw [h1, val_main_v38_apply]
  have h2 : idx_main_v38 (ix2 e (0 : Fin 1)) = ix1 e := funext fun a => match a with | ⟨0, _⟩ => rfl
  rw [h2, val_main_v37_apply, val_main_v36_apply, val_main_c_7_apply]

/-- What replaces the products of the other types: zero. -/
theorem fill3_apply (i : S1000000x64.Idx) : val_main_call3_v2 (F := Ideal) i = (0 : EReal) := by
  rw [val_main_call3_v2_apply, val_main_call3_v0_apply, val_main_cst_8_apply, Ideal.ofBits_def, Ideal.ofBits_zero_f32]

/-- What the four kept products are added to: zero. -/
theorem start_apply (i : S1000000x64.Idx) : val_main_v11 (F := Ideal) i = (0 : EReal) := by
  rw [val_main_v11_apply, val_main_cst_apply, Ideal.ofBits_def, Ideal.ofBits_zero_f32]

/-- THE MESSAGES: at edge `e` and column `c` the sum of the four kept products is the product of the edge's own
    type, the specification's message. -/
theorem msgs_apply (h : Cert.Spec.InRange x1 x2) (e : Fin 1000000) (c : Fin 64) :
    val_main_v43 (F := Ideal) x0 x1 x2 x3 (ix2 e c) = Cert.Spec.msg x0 x1 x2 x3 e c := by
  rw [val_main_v43_apply, val_main_v35_apply, val_main_v27_apply, val_main_v19_apply,
    val_main_v42_apply, val_main_v34_apply, val_main_v26_apply, val_main_v18_apply,
    start_apply, fill0_apply, fill1_apply, fill2_apply, fill3_apply,
    mask0_apply, mask1_apply, mask2_apply, mask3_apply,
    prod0_apply x0 x1 x2 x3 h, prod1_apply x0 x1 x2 x3 h, prod2_apply x0 x1 x2 x3 h, prod3_apply x0 x1 x2 x3 h]
  simp only [Ideal.addf_def]
  exact pick4 (x2 (ix1 e)) (Cert.Spec.typOf x2 e) (h.typ_val e)
    (fun t => ∑ k : Fin 64, x0 (ix2 (Cert.Spec.srcOf x1 e) k) * x3 (ix3 t k c))

/-! ## The sum into the destination rows, the root product and the bias -/

/-- What the messages are summed into: zero. -/
theorem init_apply (i : S50000x64.Idx) : val_main_v44 (F := Ideal) i = (0 : EReal) := by
  rw [val_main_v44_apply, val_main_cst_9_apply, Ideal.ofBits_def, Ideal.ofBits_zero_f32]

/-- The summed array, with the host's accumulating scatter read at the extended reals. -/
theorem summed_at_ideal :
    val_main_v46 (F := Ideal) x0 x1 x2 x3
      = Ideal.hostScatterAdd scatter_S50000x64_S1000000x1_S1000000x64_1_0_0_1 (val_main_v44 (F := Ideal))
          (val_main_v45 (F := Ideal) x1) (val_main_v43 (F := Ideal) x0 x1 x2 x3) := rfl

/-- Row `n` of the summed array is the sum of the messages of the edges whose destination is `n`. -/
theorem agg_apply (h : Cert.Spec.InRange x1 x2) (n : Fin 50000) (c : Fin 64) :
    val_main_v46 (F := Ideal) x0 x1 x2 x3 (ix2 n c)
      = ∑ e ∈ Finset.univ.filter (fun e : Fin 1000000 => (x1 (ix2 1 e)).toInt = (n.val : ℤ)),
          Cert.Spec.msg x0 x1 x2 x3 e c := by
  rw [summed_at_ideal, Cert.Lib.scatterAdd_rows_apply scatter_S50000x64_S1000000x1_S1000000x64_1_0_0_1 rfl rfl rfl rfl,
    init_apply, zero_add]
  refine Finset.sum_congr (Finset.filter_congr fun e _ => by rw [dstCol_apply]) fun e _ => msgs_apply x0 x1 x2 x3 h e c

/-- The root product at node `n` and column `c`. -/
theorem rootProd_apply (n : Fin 50000) (c : Fin 64) :
    val_main_v47 (F := Ideal) x0 x4 (ix2 n c) = ∑ k : Fin 64, x0 (ix2 n k) * x4 (ix2 k c) := by
  rw [val_main_v47_apply]
  refine Finset.sum_congr rfl fun k _ => ?_
  have hl : lidx_main_v47 (ix2 n c) k = ix2 n k := funext fun a => match a with | ⟨0, _⟩ => rfl | ⟨1, _⟩ => rfl
  have hr : ridx_main_v47 (ix2 n c) k = ix2 k c := funext fun a => match a with | ⟨0, _⟩ => rfl | ⟨1, _⟩ => rfl
  rw [hl, hr]

/-- The bias, copied into every row. -/
theorem bias_apply (n : Fin 50000) (c : Fin 64) : val_main_v50 (F := Ideal) x5 (ix2 n c) = x5 (ix1 c) := by
  rw [val_main_v50_apply, val_main_v49_apply]
  refine congrArg x5 (funext fun a => ?_)
  match a with
  | ⟨0, _⟩ => rfl

/-- THE RESULT at node `n` and column `c` is the specification's. -/
theorem result_apply (h : Cert.Spec.InRange x1 x2) (n : Fin 50000) (c : Fin 64) :
    val_main_v51 (F := Ideal) x0 x1 x2 x3 x4 x5 (ix2 n c) = Cert.Spec.out x0 x1 x2 x3 x4 x5 n c := by
  rw [val_main_v51_apply, val_main_v48_apply, agg_apply x0 x1 x2 x3 h, rootProd_apply, bias_apply]
  simp only [Ideal.addf_def]
  unfold Cert.Spec.out Cert.Spec.root
  rw [add_comm (∑ e ∈ _, _) (∑ k : Fin 64, _), add_right_comm]

end Stages

/-- The reference's last stage, as a function of the six arguments, is the specification's array. -/
theorem result_eq (x0 : (⟨S50000x64, .f32⟩ : BufTy).Contents (Elt Ideal)) (x1 : (⟨S2x1000000, .i32⟩ : BufTy).Contents (Elt Ideal))
    (x2 : (⟨S1000000, .i32⟩ : BufTy).Contents (Elt Ideal)) (x3 : (⟨S4x64x64, .f32⟩ : BufTy).Contents (Elt Ideal))
    (x4 : (⟨S64x64, .f32⟩ : BufTy).Contents (Elt Ideal)) (x5 : (⟨S64, .f32⟩ : BufTy).Contents (Elt Ideal))
    (h : Cert.Spec.InRange x1 x2) :
    val_main_v51 (F := Ideal) x0 x1 x2 x3 x4 x5 = Cert.Spec.outArr x0 x1 x2 x3 x4 x5 := by
  funext i
  obtain ⟨n, c, rfl⟩ : ∃ (n : Fin 50000) (c : Fin 64), i = ix2 n c := ⟨i 0, i 1, eq_ix2 i⟩
  rw [Cert.Spec.outArr_apply]
  exact result_apply x0 x1 x2 x3 x4 x5 h n c

end Cert.ReferenceIdeal.RefValue

end
-- ==== Proof.lean ====
/-
  The five claims for the graph layer: a node's output row is its own feature row times the root matrix, plus the root
  bias, plus, over the edges that end at the node, the source node's row times the weight matrix of the edge's type.

  The kernel program computes the four per-type products of all node features in one launch, lays them out as one
  table, takes for each edge the row numbered type · 50000 + source, computes the root term in a second launch and adds
  the taken rows into it at the destination rows. The reference gathers each edge's source row, multiplies by each of
  the four weight matrices, keeps the product of the edge's own type, sums the messages into their destination rows
  starting from zero and adds the root term afterwards. Over the extended reals the two are the same sums in another
  order, so only the commutativity and associativity of addition are used, and the finiteness of the float inputs is
  not. The two programs read the edge tables differently outside their ranges (a negative row number counts from the
  end, a row number past the table is clamped or dropped, an unknown type contributes nothing in the reference), so the
  precondition also says that every source and destination is one of the 50000 nodes and every type one of the four.

  The three frames are the generated ones (the reference's is its generated run with the result dropped); nothing was
  rewritten by the idealization, so `preserves` is trivial; `algebraic` puts the two runs side by side at the
  specification's array.
-/
import proofs.«404253_j14336600834347_2_alg».proof.Defs
import proofs.«404253_j14336600834347_2_alg».proof.Proof.Gen.Kernel
import proofs.«404253_j14336600834347_2_alg».proof.Proof.Gen.Kernel.Skeleton
import proofs.«404253_j14336600834347_2_alg».proof.Proof.Gen.Kernel.Launch
import proofs.«404253_j14336600834347_2_alg».proof.Proof.Gen.Kernel.Points
import proofs.«404253_j14336600834347_2_alg».proof.Proof.Gen.Kernel.Frame
import proofs.«404253_j14336600834347_2_alg».proof.Proof.Gen.KernelIdeal
import proofs.«404253_j14336600834347_2_alg».proof.Proof.Gen.KernelIdeal.Skeleton
import proofs.«404253_j14336600834347_2_alg».proof.Proof.Gen.KernelIdeal.Launch
import proofs.«404253_j14336600834347_2_alg».proof.Proof.Gen.KernelIdeal.Points
import proofs.«404253_j14336600834347_2_alg».proof.Proof.Gen.KernelIdeal.Frame
import proofs.«404253_j14336600834347_2_alg».proof.Proof.Gen.ReferenceIdeal
import proofs.«404253_j14336600834347_2_alg».proof.Proof.Gen.Pre_finite_inputs
import proofs.«404253_j14336600834347_2_alg».proof.Proof.Gen.ReferenceIdeal.Run
import proofs.«404253_j14336600834347_2_alg».proof.Proof.Gen.ReferenceIdeal.Read
import proofs.«404253_j14336600834347_2_alg».proof.Proof.Spec
import proofs.«404253_j14336600834347_2_alg».proof.Proof.PreFacts
import proofs.«404253_j14336600834347_2_alg».proof.Proof.KernelRun
import proofs.«404253_j14336600834347_2_alg».proof.Proof.KernelValue
import proofs.«404253_j14336600834347_2_alg».proof.Proof.KernelAlgebra
import proofs.«404253_j14336600834347_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result arrays at the specification's array of the arguments, which agree. -/
theorem algebraic : Cert.algebraic_KernelIdeal_ReferenceIdeal := by
  intro m ρ m' ρ' hpre hagree
  refine ⟨fun c => Cert.Spec.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.GenRun.run_result (F := Ideal) m ρ)
    rw [Cert.KernelIdeal.Result.result_term]
    exact Cert.KernelIdeal.Algebra.kernelTerm_eq _ _ _ _ _ _ (Cert.PreFacts.inRange _ _ _ _ _ _ (hpre c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1,
      (hagree c).2.2.2.2.1, (hagree c).2.2.2.2.2]
    exact Cert.ReferenceIdeal.RefValue.result_eq _ _ _ _ _ _ (Cert.PreFacts.inRange _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
